-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x23 : Shape := ⟨2, ![4096, 23]⟩
abbrev S64x5 : Shape := ⟨2, ![64, 5]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S4096x23 : S_.BroadcastsInDim S4096x23 (![] : Fin 0 → Fin S4096x23.rank)
  reducesTo_S4096x23_S_d0_1 : S4096x23.ReducesTo [0, 1] S_
  h_S_ : 0 < S_.numel
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32x64 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S4096x23 .f32) (main_arg1 : FVec F S4096x23 .f32) (main_arg2 : FVec F S64x5 .f32) (main_arg3 : FVec F S64 .f32) (main_arg4 : FVec F S32x64 .f32) (main_arg5 : FVec F S32 .f32) : IVec S_ 1 :=
  let main_v0 : FVec F S4096x23 .f32 := Host.absf main_arg0
  let main_cst : FVec F S_ .f32 := constant S_ .f32 0x7F800000#32
  let main_v1 : FVec F S4096x23 .f32 := broadcastInDim S4096x23 ![] bcast_S_S4096x23 main_cst
  let main_v2 : IVec S4096x23 1 := cmpf .olt main_v0 main_v1
  let main_c : IVec S_ 1 := constantI S_ 1 1#1
  let main_v3 : IVec S_ 1 := (fun x v => Host.reduce IntOp.andi x v reducesTo_S4096x23_S_d0_1 h_S_) main_v2 main_c
  let main_v4 : FVec F S4096x23 .f32 := Host.absf main_arg1
  let main_cst_0 : FVec F S_ .f32 := constant S_ .f32 0x7F800000#32
  let main_v5 : FVec F S4096x23 .f32 := broadcastInDim S4096x23 ![] bcast_S_S4096x23 main_cst_0
  let main_v6 : IVec S4096x23 1 := cmpf .olt main_v4 main_v5
  let main_c_1 : IVec S_ 1 := constantI S_ 1 1#1
  let main_v7 : IVec S_ 1 := (fun x v => Host.reduce IntOp.andi x v reducesTo_S4096x23_S_d0_1 h_S_) main_v6 main_c_1
  let main_v8 : IVec S_ 1 := andi main_v3 main_v7
  let main_v9 : FVec F S64x5 .f32 := Host.absf main_arg2
  let main_cst_2 : FVec F S_ .f32 := constant S_ .f32 0x7F800000#32
  let main_v10 : FVec F S64x5 .f32 := broadcastInDim S64x5 ![] bcast_S_S64x5 main_cst_2
  let main_v11 : IVec S64x5 1 := cmpf .olt main_v9 main_v10
  let main_c_3 : IVec S_ 1 := constantI S_ 1 1#1
  let main_v12 : IVec S_ 1 := (fun x v => Host.reduce IntOp.andi x v reducesTo_S64x5_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S4096x23 : Shape := ⟨2, ![4096, 23]⟩
abbrev S64x5 : Shape := ⟨2, ![64, 5]⟩
abbrev S64 : Shape := ⟨1, ![64]⟩
abbrev S32x64 : Shape := ⟨2, ![32, 64]⟩
abbrev S32 : Shape := ⟨1, ![32]⟩
abbrev S4096x5 : Shape := ⟨2, ![4096, 5]⟩
abbrev S4096x1 : Shape := ⟨2, ![4096, 1]⟩
abbrev S4096x16 : Shape := ⟨2, ![4096, 16]⟩
abbrev S1x64 : Shape := ⟨2, ![1, 64]⟩
abbrev S1x32 : Shape := ⟨2, ![1, 32]⟩
abbrev S4096x32 : Shape := ⟨2, ![4096, 32]⟩
abbrev S512x5 : Shape := ⟨2, ![512, 5]⟩
abbrev S512x16 : Shape := ⟨2, ![512, 16]⟩
abbrev S512x1 : Shape := ⟨2, ![512, 1]⟩
abbrev S512x32 : Shape := ⟨2, ![512, 32]⟩
abbrev S5x64 : Shape := ⟨2, ![5, 64]⟩
abbrev S512x64 : Shape := ⟨2, ![512, 64]⟩
abbrev S64x32 : Shape := ⟨2, ![64, 32]⟩
abbrev S512 : Shape := ⟨1, ![512]⟩
abbrev S32x4096 : Shape := ⟨2, ![32, 4096]⟩
abbrev S16x4096 : Shape := ⟨2, ![16, 4096]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 26
  | .vmem => 43
  | .smem => 0
  | _ => 0

abbrev bufTy : (tb : Table) → Fin (tcTables nBuf tb) → BufTy
  | .hbm, ⟨0, _⟩ => ⟨S4096x23, .f32⟩
  | .hbm, ⟨1, _⟩ => ⟨S4096x23, .f32⟩
  | .hbm, ⟨2, _⟩ => ⟨S64x5, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S4096x5, .f32⟩
  | .hbm, ⟨7, _⟩ => ⟨S4096x5, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S1x64, .f32⟩
  | .hbm, ⟨13, _⟩ => ⟨S1x32, .f32⟩
  | .hbm, ⟨14, _⟩ => ⟨S4096x32, .f32⟩
  | .hbm, ⟨15, _⟩ => ⟨S4096x16, .f32⟩
  | .hbm, ⟨16, _⟩ => ⟨S4096x1, .f32⟩
  | .hbm, ⟨17, _⟩ => ⟨S1x64, .f32⟩
  | .hbm, ⟨18, _⟩ => ⟨S1x32, .f32⟩
  | .hbm, ⟨19, _⟩ => ⟨S4096x32, .f32⟩
  | .hbm, ⟨20, _⟩ => ⟨S4096x16, .f32⟩
  | .hbm, ⟨21, _⟩ => ⟨S4096x1, .f32⟩
  | .hbm, ⟨22, _⟩ => ⟨S32x4096, .f32⟩
  | .hbm, ⟨23, _⟩ => ⟨S16x4096, .f32⟩
  | .hbm, ⟨24, _⟩ => ⟨S1x4096, .f32⟩
  | .hbm, ⟨25, _⟩ => ⟨S4096x4096, .f32⟩
  | .local _ .vmem, ⟨0, _⟩ => ⟨S512x5, .f32⟩
  | .local _ .vmem, ⟨1, _⟩ => ⟨S512x5, .f32⟩
  | .local _ .vmem, ⟨2, _⟩ => ⟨S512x16, .f32⟩
  | .local _ .vmem, ⟨3, _⟩ => ⟨S512x16, .f32⟩
  | .local _ .vmem, ⟨4, _⟩ => ⟨S512x1, .f32⟩
  | .local _ .vmem, ⟨5, _⟩ => ⟨S512x1, .f32⟩
  | .local _ .vmem, ⟨6, _⟩ => ⟨S64x5, .f32⟩
  | .local _ .vmem, ⟨7, _⟩ => ⟨S1x64, .f32⟩
  | .local _ .vmem, ⟨8, _⟩ => ⟨S32x64, .f32⟩
  | .local _ .vmem, ⟨9, _⟩ => ⟨S1x32, .f32⟩
  | .local _ .vmem, ⟨10, _⟩ => ⟨S512x32, .f32⟩
  | .local _ .vmem, ⟨11, _⟩ => ⟨S512x32, .f32⟩
  | .local _ .vmem, ⟨12, _⟩ => ⟨S512x16, .f32⟩
  | .local _ .vmem, ⟨13, _⟩ => ⟨S512x16, .f32⟩
  | .local _ .vmem, ⟨14, _⟩ => ⟨S512x1, .f32⟩
  | .local _ .vmem, ⟨15, _⟩ => ⟨S512x1, .f32⟩
  | .local _ .vmem, ⟨16, _⟩ => ⟨S512x5, .f32⟩
  | .local _ .vmem, ⟨17, _⟩ => ⟨S512x5, .f32⟩
  | .local _ .vmem, ⟨18, _⟩ => ⟨S512x16, .f32⟩
  | .local _ .vmem, ⟨19, _⟩ => ⟨S512x16, .f32⟩
  | .local _ .vmem, ⟨20, _⟩ => ⟨S512x1, .f32⟩
  | .local _ .vmem, ⟨21, _⟩ => ⟨S512x1, .f32⟩
  | .local _ .vmem, ⟨22, _⟩ => ⟨S64x5, .f32⟩
  | .local _ .vmem, ⟨23, _⟩ => ⟨S1x64, .f32⟩
  | .local _ .vmem, ⟨24, _⟩ => ⟨S32x64, .f32⟩
  | .local _ .vmem, ⟨25, _⟩ => ⟨S1x32, .f32⟩
  | .local _ .vmem, ⟨26, _⟩ => ⟨S512x32, .f32⟩
  | .local _ .vmem, ⟨27, _⟩ => ⟨S512x32, .f32⟩
  | .local _ .vmem, ⟨28, _⟩ => ⟨S512x16, .f32⟩
  | .local _ .vmem, ⟨29, _⟩ => ⟨S512x16, .f32⟩
  | .local _ .vmem, ⟨30, _⟩ => ⟨S512x1, .f32⟩
  | .local _ .vmem, ⟨31, _⟩ => ⟨S512x1, .f32⟩
  | .local _ .vmem, ⟨32, _⟩ => ⟨S512x32, .f32⟩
  | .local _ .vmem, ⟨33, _⟩ => ⟨S512x32, .f32⟩
  | .local _ .vmem, ⟨34, _⟩ => ⟨S32x4096, .f32⟩
  | .local _ .vmem, ⟨35, _⟩ => ⟨S512x16, .f32⟩
  | .local _ .vmem, ⟨36, _⟩ => ⟨S512x16, .f32⟩
  | .local _ .vmem, ⟨37, _⟩ => ⟨S16x4096, .f32⟩
  | .local _ .vmem, ⟨38, _⟩ => ⟨S512x1, .f32⟩
  | .local _ .vmem, ⟨39, _⟩ => ⟨S512x1, .f32⟩
  | .local _ .vmem, ⟨40, _⟩ => ⟨S1x4096, .f32⟩
  | .local _ .vmem, ⟨41, _⟩ => ⟨S512x4096, .f32⟩
  | .local _ .vmem, ⟨42, _⟩ => ⟨S512x4096, .f32⟩
  | _, _ => ⟨S4096x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg6_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem2_1 : DmaSem sig := 36
abbrev cc2_sem3_0 : DmaSem sig := 37
abbrev cc2_sem4_0 : DmaSem sig := 38
abbrev cc2_sem4_1 : DmaSem sig := 39
abbrev cc2_sem5_0 : DmaSem sig := 40
abbrev cc2_sem6_0 : DmaSem sig := 41
abbrev cc2_sem6_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S4096x23_S4096x5_0_1 : S4096x23.Slices ![0, 1] S4096x5
  slices_S4096x23_S4096x1_0_6 : S4096x23.Slices ![0, 6] S4096x1
  slices_S4096x23_S4096x16_0_7 : S4096x23.Slices ![0, 7] S4096x16
  shapeCasts_S64_S1x64 : S64.ShapeCasts S1x64
  shapeCasts_S32_S1x32 : S32.ShapeCasts S1x32
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S64x5_S64x5_0_0 : ∀ a, (![0, 0] : Fin 2 → Nat) a + S64x5.size a ≤ S64x5.size a
  h_S64x5 : 0 < S64x5.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S64x5_p1_0_S5x64 : S64x5.Transposes [1, 0] S5x64
  broadcasts_S1x64_S512x64 : S1x64.Broadcasts S512x64
  transposes_S32x64_p1_0_S64x32 : S32x64.Transposes [1, 0] S64x32
  broadcasts_S1x32_S512x32 : S1x32.Broadcasts S512x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S4096x32_S32x4096_1_0 : S4096x32.Transposes [1, 0] S32x4096
  transposes_S4096x16_S16x4096_1_0 : S4096x16.Transposes [1, 0] S16x4096
  shapeCasts_S4096x1_S1x4096 : S4096x1.ShapeCasts S1x4096
  shapeCasts_S512x32_S512x32 : S512x32.ShapeCasts S512x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  natLt_1_32 : 1 < 32
  inb_S512x4096_S512x4096_0_0 : ∀ a, (![0, 0] : Fin 2 → Nat) a + S512x4096.size a ≤ S512x4096.size a
  h_S512x4096 : 0 < S512x4096.numel
  dot_S512x5_S5x64_S512x64_1_0_0_1_n_n_wf : DotDims.WF S512x5 S5x64 S512x64 [1] [0] [0] [1] [] []
  dot_S512x64_S64x32_S512x32_1_0_0_1_n_n_wf : DotDims.WF S512x64 S64x32 S512x32 [1] [0] [0] [1] [] []
  dot_S512x32_S32x4096_S512x4096_1_0_0_1_n_n_wf : DotDims.WF S512x32 S32x4096 S512x4096 [1] [0] [0] [1] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5.size a ≤ S4096x5.size a
  hwx0_0 : ∀ i : grid0.Coords, EltTy.bits .f32 = 32 ∨ (Rect.block (s := S4096x5) S512x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x5.size a ≤ S64x5.size a
  hwx0_3 : ∀ i : grid0.Coords, EltTy.bits .f32 = 32 ∨ (Rect.block (s := S64x5) S64x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x32.size a ≤ S4096x32.size a
  hwx0_7 : ∀ i : grid0.Coords, EltTy.bits .f32 = 32 ∨ (Rect.block (s := S4096x32) S512x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x16.size a ≤ S4096x16.size a
  hwx0_8 : ∀ i : grid0.Coords, EltTy.bits .f32 = 32 ∨ (Rect.block (s := S4096x16) S512x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5.size a ≤ S4096x5.size a
  hwx1_0 : ∀ i : grid1.Coords, EltTy.bits .f32 = 32 ∨ (Rect.block (s := S4096x5) S512x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S4096x16.size a
  hwx1_1 : ∀ i : grid1.Coords, EltTy.bits .f32 = 32 ∨ (Rect.block (s := S4096x16) S512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x5.size a ≤ S64x5.size a
  hwx1_3 : ∀ i : grid1.Coords, EltTy.bits .f32 = 32 ∨ (Rect.block (s := S64x5) S64x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x32.size a ≤ S4096x32.size a
  hwx1_7 : ∀ i : grid1.Coords, EltTy.bits .f32 = 32 ∨ (Rect.block (s := S4096x32) S512x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x16.size a ≤ S4096x16.size a
  hwx1_8 : ∀ i : grid1.Coords, EltTy.bits .f32 = 32 ∨ (Rect.block (s := S4096x16) S512x16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x1.size a ≤ S4096x1.size a
  hwx1_9 : ∀ i : grid1.Coords, EltTy.bits .f32 = 32 ∨ (Rect.block (s := S4096x1) S512x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x32.size a ≤ S4096x32.size a
  hwx2_0 : ∀ i : grid2.Coords, EltTy.bits .f32 = 32 ∨ (Rect.block (s := S4096x32) S512x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x4096.size a ≤ S32x4096.size a
  hwx2_1 : ∀ i : grid2.Coords, EltTy.bits .f32 = 32 ∨ (Rect.block (s := S32x4096) S32x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x16.size a ≤ S4096x16.size a
  hwx2_2 : ∀ i : grid2.Coords, EltTy.bits .f32 = 32 ∨ (Rect.block (s := S4096x16) S512x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x4096.size a ≤ S16x4096.size a
  hwx2_3 : ∀ i : grid2.Coords, EltTy.bits .f32 = 32 ∨ (Rect.block (s := S16x4096) S16x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x4096.size a ≤ S4096x4096.size a
  hwx2_6 : ∀ i : grid2.Coords, EltTy.bits .f32 = 32 ∨ (Rect.block (s := S4096x4096) S512x4096.size (cc2_transform_6 i) (hinb2_6 i)).WholeWords (EltTy.packing .f32)

variable [Facts₀]

def dot_S512x5_S5x64_S512x64_1_0_0_1_n_n : DotDims S512x5 S5x64 S512x64 where
  lhsContracting := [1]
  rhsContracting := [0]
  lhsNonContracting := [0]
  rhsNonContracting := [1]
  lhsBatch := []
  rhsBatch := []
  wf := dot_S512x5_S5x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_v0) S512x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S512x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S512x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1) S512x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S512x32.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S512x16.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v11_2) S512x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v8_0) S512x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S32x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_1) S512x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S16x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8_2) S512x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S512x4096.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096x23 : Shape := ⟨2, ![4096, 23]⟩
abbrev S64x5 : Shape := ⟨2, ![64, 5]⟩
abbrev S64 : Shape := ⟨1, ![64]⟩
abbrev S32x64 : Shape := ⟨2, ![32, 64]⟩
abbrev S32 : Shape := ⟨1, ![32]⟩
abbrev S4096x5 : Shape := ⟨2, ![4096, 5]⟩
abbrev S4096x1 : Shape := ⟨2, ![4096, 1]⟩
abbrev S4096 : Shape := ⟨1, ![4096]⟩
abbrev S4096x16 : Shape := ⟨2, ![4096, 16]⟩
abbrev S5x64 : Shape := ⟨2, ![5, 64]⟩
abbrev S4096x64 : Shape := ⟨2, ![4096, 64]⟩
abbrev S1x64 : Shape := ⟨2, ![1, 64]⟩
abbrev S_ : Shape := ⟨0, ![]⟩
abbrev S64x32 : Shape := ⟨2, ![64, 32]⟩
abbrev S4096x32 : Shape := ⟨2, ![4096, 32]⟩
abbrev S1x32 : Shape := ⟨2, ![1, 32]⟩
abbrev S32x4096 : Shape := ⟨2, ![32, 4096]⟩
abbrev S4096x4096 : Shape := ⟨2, ![4096, 4096]⟩
abbrev S1x4096 : Shape := ⟨2, ![1, 4096]⟩
abbrev S16x4096 : Shape := ⟨2, ![16, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x23, .f32⟩
  | .hbm, ⟨1, _⟩ => ⟨S4096x23, .f32⟩
  | .hbm, ⟨2, _⟩ => ⟨S64x5, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S4096x5, .f32⟩
  | .hbm, ⟨7, _⟩ => ⟨S4096x5, .f32⟩
  | .hbm, ⟨8, _⟩ => ⟨S4096x1, .f32⟩
  | .hbm, ⟨9, _⟩ => ⟨S4096, .f32⟩
  | .hbm, ⟨10, _⟩ => ⟨S4096x1, .f32⟩
  | .hbm, ⟨11, _⟩ => ⟨S4096, .f32⟩
  | .hbm, ⟨12, _⟩ => ⟨S4096x16, .f32⟩
  | .hbm, ⟨13, _⟩ => ⟨S4096x16, .f32⟩
  | .hbm, ⟨14, _⟩ => ⟨S5x64, .f32⟩
  | .hbm, ⟨15, _⟩ => ⟨S4096x64, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S64x32, .f32⟩
  | .hbm, ⟨23, _⟩ => ⟨S4096x32, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S5x64, .f32⟩
  | .hbm, ⟨28, _⟩ => ⟨S4096x64, .f32⟩
  | .hbm, ⟨29, _⟩ => ⟨S1x64, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | .hbm, ⟨35, _⟩ => ⟨S64x32, .f32⟩
  | .hbm, ⟨36, _⟩ => ⟨S4096x32, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x32, .f32⟩
  | .hbm, ⟨59, _⟩ => ⟨S4096x32, .f32⟩
  | .hbm, ⟨60, _⟩ => ⟨S32x4096, .f32⟩
  | .hbm, ⟨61, _⟩ => ⟨S4096x4096, .f32⟩
  | .hbm, ⟨62, _⟩ => ⟨S4096x1, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x4096, .i1⟩
  | .hbm, ⟨67, _⟩ => ⟨S4096x4096, .f32⟩
  | .hbm, ⟨68, _⟩ => ⟨S4096x16, .f32⟩
  | .hbm, ⟨69, _⟩ => ⟨S4096x16, .f32⟩
  | .hbm, ⟨70, _⟩ => ⟨S16x4096, .f32⟩
  | .hbm, ⟨71, _⟩ => ⟨S4096x4096, .f32⟩
  | .hbm, ⟨72, _⟩ => ⟨S4096x4096, .f32⟩
  | .hbm, ⟨73, _⟩ => ⟨S4096x4096, .f32⟩
  | _, _ => ⟨S4096x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_cst : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call2_v0 : Ref sig .tc := ⟨.hbm, 40, rfl⟩
abbrev main_call2_cst : Ref sig .tc := ⟨.hbm, 41, rfl⟩
abbrev main_call2_v1 : Ref sig .tc := ⟨.hbm, 42, rfl⟩
abbrev main_call2_v2 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call3_v0 : Ref sig .tc := ⟨.hbm, 50, rfl⟩
abbrev main_call3_cst : Ref sig .tc := ⟨.hbm, 51, rfl⟩
abbrev main_call3_v1 : Ref sig .tc := ⟨.hbm, 52, rfl⟩
abbrev main_call3_v2 : Ref sig .tc := ⟨.hbm, 53, rfl⟩
abbrev main_v35 : Ref sig .tc := ⟨.hbm, 54, rfl⟩
abbrev main_cst_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S4096x23_S4096x5_0_1 : S4096x23.Slices ![0, 1] S4096x5
  slices_S4096x23_S4096x1_0_6 : S4096x23.Slices ![0, 6] S4096x1
  shapeCasts_S4096x1_S4096 : S4096x1.ShapeCasts S4096
  slices_S4096x23_S4096x16_0_7 : S4096x23.Slices ![0, 7] S4096x16
  transposes_S64x5_S5x64_1_0 : S64x5.Transposes [1, 0] S5x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S32x64_S64x32_1_0 : S32x64.Transposes [1, 0] S64x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  reducesTo_S4096x32_S4096_d1 : S4096x32.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  transposes_S4096x32_S32x4096_1_0 : S4096x32.Transposes [1, 0] S32x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x16_S16x4096_1_0 : S4096x16.Transposes [1, 0] S16x4096
  dot_S4096x5_S5x64_S4096x64_1_0_0_1_n_n_wf : DotDims.WF S4096x5 S5x64 S4096x64 [1] [0] [0] [1] [] []
  dot_S4096x64_S64x32_S4096x32_1_0_0_1_n_n_wf : DotDims.WF S4096x64 S64x32 S4096x32 [1] [0] [0] [1] [] []
  dot_S4096x32_S32x4096_S4096x4096_1_0_0_1_n_n_wf : DotDims.WF S4096x32 S32x4096 S4096x4096 [1] [0] [0] [1] [] []
  dot_S4096x16_S16x4096_S4096x4096_1_0_0_1_n_n_wf : DotDims.WF S4096x16 S16x4096 S4096x4096 [1] [0] [0] [1] [] []

variable [Facts₀]

def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Spec.lean ====
/-
  What both programs compute, one row at a time, over the extended reals.

  A row of a prediction table carries five features (columns 1..5), a class label (column 6) and sixteen
  confidences (columns 7..22). From the features a two-layer map makes 32 numbers: the 64 hidden units are the
  rectified affine images `max (∑ d, x d * w1 h d + b1 h) 0`, and feature `k` is `∑ h, hidden h * w2 k h + b2 k`.
  The row's direction is that vector over its Euclidean length, the length clamped below by a small shared word.
  For a row `i` of the first table and a row `j` of the second the result is the product of three numbers:
  1 or 0 as the two class labels compare equal, the inner product of the square roots of the confidences, and the
  inner product of the two directions. Nothing here distributes, cancels or reorders: every sum is over one index in
  its natural order, so the equalities proved against this file hold at the infinities too.
-/
import Idealize.ShloMosaic.PureOps.Ideal

open scoped BigOperators

noncomputable section

namespace Cert.CosinePair

open Idealize.ShloMosaic

/-- The zero word the rectifier compares against. -/
abbrev zeroW : EReal := Ideal.ofBits .f32 0x00000000#32
/-- The small word that clamps a length from below (the float nearest 1e-8). -/
abbrev epsW : EReal := Ideal.ofBits .f32 0x322BCC77#32

section Row

variable (x : Fin 5 → EReal) (w1 : Fin 64 → Fin 5 → EReal) (b1 : Fin 64 → EReal)
  (w2 : Fin 32 → Fin 64 → EReal) (b2 : Fin 32 → EReal)

/-- Hidden unit `h` of a row: the rectified affine image of its five features. -/
def hidden (h : Fin 64) : EReal := max ((∑ d : Fin 5, x d * w1 h d) + b1 h) zeroW

/-- Feature `k` of a row: the second affine layer over the 64 hidden units. -/
def feat (k : Fin 32) : EReal := (∑ h : Fin 64, hidden x w1 b1 h * w2 k h) + b2 k

/-- The row's Euclidean length, clamped below by the small word. -/
def len : EReal := max (Ideal.sqrt (∑ k : Fin 32, feat x w1 b1 w2 b2 k * feat x w1 b1 w2 b2 k)) epsW

/-- The row's direction: each feature over the clamped length. -/
def dir (k : Fin 32) : EReal := Ideal.div (feat x w1 b1 w2 b2 k) (len x w1 b1 w2 b2)

end Row

/-- 1 when two class labels compare equal (ordered), else 0: the one-bit comparison read as a natural number. -/
def same (a b : EReal) : EReal := FloatOps.uitofp (F := Ideal) .f32 (FloatOps.cmpf (F := Ideal) (φ := .f32) .oeq a b)

/-- The same bit widened to 32 bits without sign and then read as a signed integer is the same number: a one-bit
    word is 0 or 1, and so is its zero extension. -/
theorem setWidth_toInt_eq_toNat (b : BitVec 1) : ((b.setWidth 32).toInt : ℝ) = (b.toNat : ℝ) := by
  have h : ∀ b : BitVec 1, (b.setWidth 32).toInt = (b.toNat : Int) := by decide
  rw [h b]; simp

/-- The widened, signed reading of the comparison bit is `same`. -/
theorem sitofp_setWidth_cmp (a b : EReal) :
    FloatOps.sitofp (F := Ideal) .f32 ((FloatOps.cmpf (F := Ideal) (φ := .f32) .oeq a b).setWidth 32) = same a b := by
  show (((((FloatOps.cmpf (F := Ideal) (φ := .f32) .oeq a b).setWidth 32).toInt : ℝ)) : EReal) = (((FloatOps.cmpf (F := Ideal) (φ := .f32) .oeq a b).toNat : ℝ) : EReal)
  rw [setWidth_toInt_eq_toNat]

/-- One entry of the result from two rows' directions, square-rooted confidences and class labels. -/
def pair (n1 n2 : Fin 32 → EReal) (s1 s2 : Fin 16 → EReal) (c1 c2 : EReal) : EReal :=
  (same c1 c2 * ∑ c : Fin 16, s1 c * s2 c) * ∑ k : Fin 32, n1 k * n2 k

/-- Columns of a 23-wide prediction row. -/
abbrev featCol (d : Fin 5) : Fin 23 := ⟨1 + d.val, by omega⟩
abbrev clsCol : Fin 23 := ⟨6, by omega⟩
abbrev confCol (c : Fin 16) : Fin 23 := ⟨7 + c.val, by omega⟩

/-- The whole result at `(i, j)` from the two prediction tables and the four weight arrays. -/
def result (p1 p2 : Fin 4096 → Fin 23 → EReal) (w1 : Fin 64 → Fin 5 → EReal) (b1 : Fin 64 → EReal)
    (w2 : Fin 32 → Fin 64 → EReal) (b2 : Fin 32 → EReal) (i j : Fin 4096) : EReal :=
  pair (dir (fun d => p1 i (featCol d)) w1 b1 w2 b2) (dir (fun d => p2 j (featCol d)) w1 b1 w2 b2)
    (fun c => Ideal.sqrt (p1 i (confCol c))) (fun c => Ideal.sqrt (p2 j (confCol c)))
    (p1 i clsCol) (p2 j clsCol)

end Cert.CosinePair

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.LibDotRows.lean ====
/-
  The product of an `[m, k]` by a `[k, n]` vector into the zero accumulator (a matrix product with no
  batch axis, contracting the left operand's axis 1 with the right operand's axis 0), read at an index written with
  `ValueIdx.ix2`, for any extents `m`, `k`, `n`, any operand formats and any precision, at the ideal values:

  • `matmul_zero_apply`: for the record with the dimension numbers `[1] [0] [0] [1] [] []` and any proof of their
    well-formedness, the product read at `(a, b)` is `∑ c : Fin k, A (a, c) * B (c, b)`: the accumulator's zero is
    dropped, and the contraction index, a one-axis multi-index, is re-indexed by its one coordinate, so the sum runs
    over the contracted coordinate in its natural order;
  • `matmul_zero_apply_of_dims`: the same for any record `D` between those three shapes whose six lists are those.

  The layout steps such a product is read through are elsewhere: the swap of a matrix's axes at `(j, i)` and one row
  `[1, b]` broadcast to `[a, b]` are the library's `transpose_ix2_apply` and `broadcastTo_1b_ab_apply`
  (Lib/ValueLayout.lean); one column `[a, 1]` broadcast to `[a, b]` is `broadcastTo_a1_ab_apply` (LibKeepdims.lean).

  Together: `(x · wᵀ + bias)` at `(p, h)` is `∑ d, x (p, d) * w (h, d) + bias (0, h)`, and mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

/-- An `m × k` by `k × n` product into the zero accumulator, read at `(a, b)`, is the sum over the contracted
    coordinate, in its natural order, of the products of the entries: the accumulator's zero is dropped, and a
    contraction index is its one coordinate. `w` is the record's well-formedness, which a program states. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  have el : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have er : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [el, er]

/-- The same for any record between the three shapes whose dimension numbers are those: it is that record. -/
theorem matmul_zero_apply_of_dims {m k n : ℕ} {φ₁ φ₂ : FTy} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  obtain ⟨lc, rc, ln, rn, lb, rb, w⟩ := D
  simp only at hlc hrc hln hrn hlb hrb
  subst hlc hrc hln hrn hlb hrb
  exact matmul_zero_apply w prec A B a b

end Idealize.ShloMosaic.ValueIdx
-- ==== Proof.EmbedBody.lean ====
/-
  The embedding kernel's three stored values, read at an index of the 512-row block they are computed on.

  The first is the row's direction: with `x` the block of features, the body forms `x · w1ᵀ + b1`, rectifies it,
  forms `h · w2ᵀ + b2`, sums the squares along the row, takes the root, clamps it below and divides. Read at `(p, q)`
  every step mentions row `p` only, and the two products are sums over the contracted axis in its natural order: this
  is `Cert.CosinePair.dir` of row `p`. The second is the square root of the confidences, entry by entry; the third is
  the class column unchanged. The second launch of the same kernel function has the same three values.
-/
import proofs.«117339_j76819785056585_1_alg».proof.Proof.Gen.KernelIdeal.Skeleton
import proofs.«117339_j76819785056585_1_alg».proof.Proof.Spec
import proofs.«117339_j76819785056585_1_alg».proof.Proof.LibKeepdims
import proofs.«117339_j76819785056585_1_alg».proof.Proof.LibDotRows
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.EmbedBody

open Cert.KernelIdeal Cert.KernelIdeal.Gen Cert.CosinePair Idealize.ShloMosaic Idealize.ShloMosaic.ValueIdx

/-! ## The body's intermediate values on the block -/

/-- The rectified first layer on the block: `max (x · w1ᵀ + b1) 0`. -/
private def hiddenBlock (x : FVec Ideal S512x5 .f32) (w1 : FVec Ideal S64x5 .f32) (b1 : FVec Ideal S1x64 .f32) :
    FVec Ideal S512x64 .f32 :=
  maximumf
    (addf
      (matmul dot_S512x5_S5x64_S512x64_1_0_0_1_n_n none (shapeCast S512x5 x shapeCasts_S512x5_S512x5)
        (transpose S5x64 [1, 0] w1 transposes_S64x5_p1_0_S5x64) (constant S512x64 .f32 0x00000000#32))
      (broadcastTo S512x64 (shapeCast S1x64 b1 shapeCasts_S1x64_S1x64) broadcasts_S1x64_S512x64))
    (broadcast S512x64 (Scalar.ofBits .f32 0x00000000#32))

/-- The second layer on the block: `hidden · w2ᵀ + b2`. -/
private def featBlock (x : FVec Ideal S512x5 .f32) (w1 : FVec Ideal S64x5 .f32) (b1 : FVec Ideal S1x64 .f32)
    (w2 : FVec Ideal S32x64 .f32) (b2 : FVec Ideal S1x32 .f32) : FVec Ideal S512x32 .f32 :=
  addf
    (matmul dot_S512x64_S64x32_S512x32_1_0_0_1_n_n none (hiddenBlock x w1 b1)
      (transpose S64x32 [1, 0] w2 transposes_S32x64_p1_0_S64x32) (constant S512x32 .f32 0x00000000#32))
    (broadcastTo S512x32 (shapeCast S1x32 b2 shapeCasts_S1x32_S1x32) broadcasts_S1x32_S512x32)

/-- The clamped row lengths, kept as a column. -/
private def lenBlock (x : FVec Ideal S512x5 .f32) (w1 : FVec Ideal S64x5 .f32) (b1 : FVec Ideal S1x64 .f32)
    (w2 : FVec Ideal S32x64 .f32) (b2 : FVec Ideal S1x32 .f32) : FVec Ideal S512x1 .f32 :=
  maximumf
    (sqrt (shapeCast S512x1
      (multiReduction .add [1] S512 (mulf (featBlock x w1 b1 w2 b2) (featBlock x w1 b1 w2 b2)) 0x00000000#32
        reduces_S512x32_S512 (.inl rfl) rfl) shapeCasts_S512_S512x1))
    (broadcast S512x1 (Scalar.ofBits .f32 0x322BCC77#32))

/-- Hidden unit `h` of row `p`: the product's sum runs over the five features, the swap of `w1`'s axes reads
    `w1 (h, d)`, and the bias row is read along its single row. -/
private theorem hiddenBlock_apply (x : Vec Ideal S512x5 .f32) (w1 : Vec Ideal S64x5 .f32) (b1 : Vec Ideal S1x64 .f32)
    (p : Fin 512) (h : Fin 64) :
    hiddenBlock x w1 b1 (ix2 p h)
      = CosinePair.hidden (fun d => x (ix2 p d)) (fun h d => w1 (ix2 h d)) (fun h => b1 (ix2 (0 : Fin 1) h)) h := by
  unfold hiddenBlock CosinePair.hidden
  refine (maximumf_apply _ _ _).trans ?_
  rw [addf_apply]
  refine congrArg₂ max (congrArg₂ (· + ·) ?_ ?_) rfl
  · refine (matmul_zero_apply _ none _ _ p h).trans (Finset.sum_congr rfl fun d _ => ?_)
    rw [shapeCast_self, transpose_ix2_apply]
  · rw [broadcastTo_1b_ab_apply, shapeCast_self]

/-- Feature `k` of row `p`: the second product's sum runs over the 64 hidden units of the same row. -/
private theorem featBlock_apply (x : Vec Ideal S512x5 .f32) (w1 : Vec Ideal S64x5 .f32) (b1 : Vec Ideal S1x64 .f32)
    (w2 : Vec Ideal S32x64 .f32) (b2 : Vec Ideal S1x32 .f32) (p : Fin 512) (k : Fin 32) :
    featBlock x w1 b1 w2 b2 (ix2 p k)
      = feat (fun d => x (ix2 p d)) (fun h d => w1 (ix2 h d)) (fun h => b1 (ix2 (0 : Fin 1) h))
          (fun k h => w2 (ix2 k h)) (fun k => b2 (ix2 (0 : Fin 1) k)) k := by
  unfold featBlock feat
  rw [addf_apply]
  refine congrArg₂ (· + ·) ?_ ?_
  · refine (matmul_zero_apply _ none _ _ p k).trans (Finset.sum_congr rfl fun h _ => ?_)
    rw [hiddenBlock_apply, transpose_ix2_apply]
  · rw [broadcastTo_1b_ab_apply, shapeCast_self]

/-- The clamped length of row `p`: the lane sum is the sum of the row's 32 squares, the cast to a column keeps the
    row, and the root and the clamp act entry by entry. -/
private theorem lenBlock_apply (x : Vec Ideal S512x5 .f32) (w1 : Vec Ideal S64x5 .f32) (b1 : Vec Ideal S1x64 .f32)
    (w2 : Vec Ideal S32x64 .f32) (b2 : Vec Ideal S1x32 .f32) (p : Fin 512) (u : Fin 1) :
    lenBlock x w1 b1 w2 b2 (ix2 p u)
      = len (fun d => x (ix2 p d)) (fun h d => w1 (ix2 h d)) (fun h => b1 (ix2 (0 : Fin 1) h))
          (fun k h => w2 (ix2 k h)) (fun k => b2 (ix2 (0 : Fin 1) k)) := by
  unfold lenBlock len
  refine (maximumf_apply _ _ _).trans ?_
  refine congrArg₂ max (congrArg Ideal.sqrt ?_) rfl
  refine (shapeCast_a_a1_apply _ _ p u).trans ?_
  refine (multiReduction_add_rows _ _ _ _ _ p).trans (Finset.sum_congr rfl fun k _ => ?_)
  rw [mulf_apply, featBlock_apply]

/-- The stored direction at `(p, q)` is `dir` of row `p` of the feature block, with the weights read entry by entry
    and the two bias rows read along their single row. -/
theorem dir_of_block (x : Vec Ideal S512x5 .f32) (w1 : Vec Ideal S64x5 .f32) (b1 : Vec Ideal S1x64 .f32)
    (w2 : Vec Ideal S32x64 .f32) (b2 : Vec Ideal S1x32 .f32) (p : Fin 512) (q : Fin 32) :
    k0_pay1 (F := Ideal) x w1 b1 w2 b2 (ix2 p q)
      = dir (fun d => x (ix2 p d)) (fun h d => w1 (ix2 h d)) (fun h => b1 (ix2 (0 : Fin 1) h))
          (fun k h => w2 (ix2 k h)) (fun k => b2 (ix2 (0 : Fin 1) k)) q := by
  have e : k0_pay1 (F := Ideal) x w1 b1 w2 b2
      = divf (featBlock x w1 b1 w2 b2) (broadcastTo S512x32 (lenBlock x w1 b1 w2 b2) broadcasts_S512x1_S512x32) := rfl
  rw [e, divf_apply, featBlock_apply, broadcastTo_a1_ab_apply, lenBlock_apply]
  rfl

/-- The stored confidence root is the square root entry by entry. -/
theorem root_of_block (v : Vec Ideal S512x16 .f32) (j : S512x16.Idx) : k0_pay2 (F := Ideal) v j = Ideal.sqrt (v j) := by
  unfold k0_pay2
  rw [shapeCast_self]
  rfl

/-- The stored class column is the loaded one. -/
theorem label_of_block (v : Vec Ideal S512x1 .f32) (j : S512x1.Idx) : k0_pay3 (F := Ideal) v j = v j := by
  unfold k0_pay3
  rw [shapeCast_self]

/-- The second launch computes the same three values. -/
theorem dir_of_block' (x : Vec Ideal S512x5 .f32) (w1 : Vec Ideal S64x5 .f32) (b1 : Vec Ideal S1x64 .f32)
    (w2 : Vec Ideal S32x64 .f32) (b2 : Vec Ideal S1x32 .f32) (p : Fin 512) (q : Fin 32) :
    k1_pay1 (F := Ideal) x w1 b1 w2 b2 (ix2 p q)
      = dir (fun d => x (ix2 p d)) (fun h d => w1 (ix2 h d)) (fun h => b1 (ix2 (0 : Fin 1) h))
          (fun k h => w2 (ix2 k h)) (fun k => b2 (ix2 (0 : Fin 1) k)) q :=
  dir_of_block x w1 b1 w2 b2 p q
theorem root_of_block' (v : Vec Ideal S512x16 .f32) (j : S512x16.Idx) : k1_pay2 (F := Ideal) v j = Ideal.sqrt (v j) :=
  root_of_block v j
theorem label_of_block' (v : Vec Ideal S512x1 .f32) (j : S512x1.Idx) : k1_pay3 (F := Ideal) v j = v j :=
  label_of_block v j

end Cert.KernelIdeal.EmbedBody

end
-- ==== Proof.EmbedArrays0.lean ====
/-
  An embedding launch, from blocks to arrays. The grid has eight points; point `t` reads rows
  `512 t .. 512 t + 511` of the feature, confidence and class arrays, the whole of the four weight arrays, and writes
  the same rows of the three result arrays. The eight row bands tile the 4096 rows, so each result array is, row by row,
  the body's value of that row: the direction of the row, the roots of its confidences, its class label. Stated
  at any contents `V` of the buffers at the launch's entry.
-/
import proofs.«117339_j76819785056585_1_alg».proof.Proof.Gen.KernelIdeal.Frame
import proofs.«117339_j76819785056585_1_alg».proof.Proof.EmbedBody
import Idealize.ShloMosaic.Lib.Pipeline.Value

open scoped BigOperators

noncomputable section

namespace Cert.KernelIdeal.EmbedArrays0

open Cert.KernelIdeal Cert.KernelIdeal.Gen Cert.CosinePair Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the eight grid points: a banded window's block is (the point's number, 0), a weight
    window's block is (0, 0). -/
theorem band_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Every band is some point's. -/
theorem band_onto : ∀ q : Fin 8, ∃ t : Fin cfg0.N, t.val = q.val :=
  (by decide +kernel : ∀ q : Fin 8, ∃ t : Fin grid0.N, t.val = q.val)

/-! ## The confidence roots -/

/-- The whole array the root window ends holding. -/
abbrev rootsG (c : Dev nD) : S4096x16.Idx → EReal := fun i => Ideal.sqrt (V c main_v4 i)

/-- What point `t` writes back to the root array is band `t` of `rootsG`. -/
theorem flushed_roots (c : Dev nD) (t : Fin cfg0.N) :
    (dat0 (F := Ideal) V c).flushed 8 t = ((cfg0.win 8).blk t).view.read (Elt Ideal) (rootsG V c) := by
  show (cfg0.win 8).cut (grid0.coords t) ((dat0 (F := Ideal) V c).after 8 t) = _
  rw [after0_8]
  unfold out0_8
  rw [View.canon_unit_zero hz]
  simp only [View.ld_unit_zero (S := S512x16) hz]
  obtain ⟨-, -, e10, e11, -, -, -, -, -, -, -, -, -, -, -, -, e80, e81, -, -⟩ := band_facts t
  funext j
  refine (EmbedBody.root_of_block _ j).trans ?_
  show Ideal.sqrt (V c main_v4 (((cfg0.win 1).blk t).view.emb j)) = Ideal.sqrt (V c main_v4 (((cfg0.win 8).blk t).view.emb j))
  have h : ((cfg0.win 1).blk t).view.emb j = ((cfg0.win 8).blk t).view.emb j := by
    funext a; apply Fin.ext
    match a with
    | ⟨0, _⟩ => show win0_1.index t (0 : Fin 2) * 512 + 1 * (j 0).val = win0_8.index t (0 : Fin 2) * 512 + 1 * (j 0).val; omega
    | ⟨1, _⟩ => show win0_1.index t (1 : Fin 2) * 16 + 1 * (j 1).val = win0_8.index t (1 : Fin 2) * 16 + 1 * (j 1).val; omega
  rw [h]

/-- An index of the root array is in point `t`'s band iff each coordinate is in the band's range. -/
theorem mem_band_roots (t : Fin cfg0.N) (i : S4096x16.Idx) :
    i ∈ ((cfg0.win 8).blk t).view.set ↔ ∀ a : Fin 2, win0_8.index t a * S512x16.size a ≤ (i a).val ∧ (i a).val < win0_8.index t a * S512x16.size a + S512x16.size a := by
  show i ∈ ((View.whole main_v8_1).slice (win0_8.rect t)).set ↔ _
  rw [View.set_slice_whole, Rect.mem_set_unit]
  exact Iff.rfl

/-- The bands cover the root array: row `r` is in band `r / 512`. -/
theorem cover_roots (i : S4096x16.Idx) : ∃ t : Fin cfg0.N, (cfg0.win 8).flush t = true ∧ i ∈ ((cfg0.win 8).blk t).view.set := by
  have hi0 : (i 0).val < 4096 := (i 0).isLt
  have hi1 : (i 1).val < 16 := (i 1).isLt
  obtain ⟨t, ht⟩ := band_onto ⟨(i 0).val / 512, by omega⟩
  have ht' : t.val = (i 0).val / 512 := ht
  obtain ⟨-, -, -, -, -, -, -, -, -, -, -, -, -, -, -, -, e80, e81, -, -⟩ := band_facts t
  refine ⟨t, flush0_8 t, ?_⟩
  rw [mem_band_roots]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 16 ≤ (i 1).val ∧ (i 1).val < win0_8.index t (1 : Fin 2) * 16 + 16; omega

/-- The confidence-root array after the launch. -/
theorem roots (c : Dev nD) (r : Fin 4096) (s : Fin 16) :
    (dat0 (F := Ideal) V c).arrAt 8 cfg0.N (ix2 r s) = Ideal.sqrt (V c main_v4 (ix2 r s)) :=
  congrFun ((dat0 (F := Ideal) V c).arrAt_eq_of_cover 8 (rootsG V c) (fun t _ => flushed_roots V c t) cover_roots) (ix2 r s)

/-! ## The class labels -/

/-- The whole array the class window ends holding: the class column it was given. -/
abbrev labelsG (c : Dev nD) : S4096x1.Idx → EReal := fun i => V c main_v2 i

/-- What point `t` writes back to the class array is band `t` of the class column. -/
theorem flushed_labels (c : Dev nD) (t : Fin cfg0.N) :
    (dat0 (F := Ideal) V c).flushed 9 t = ((cfg0.win 9).blk t).view.read (Elt Ideal) (labelsG V c) := by
  show (cfg0.win 9).cut (grid0.coords t) ((dat0 (F := Ideal) V c).after 9 t) = _
  rw [after0_9]
  unfold out0_9
  rw [View.canon_unit_zero hz]
  simp only [View.ld_unit_zero (S := S512x1) hz]
  obtain ⟨-, -, -, -, e20, e21, -, -, -, -, -, -, -, -, -, -, -, -, e90, e91⟩ := band_facts t
  funext j
  refine (EmbedBody.label_of_block _ j).trans ?_
  show V c main_v2 (((cfg0.win 2).blk t).view.emb j) = V c main_v2 (((cfg0.win 9).blk t).view.emb j)
  have h : ((cfg0.win 2).blk t).view.emb j = ((cfg0.win 9).blk t).view.emb j := by
    funext a; apply Fin.ext
    match a with
    | ⟨0, _⟩ => show win0_2.index t (0 : Fin 2) * 512 + 1 * (j 0).val = win0_9.index t (0 : Fin 2) * 512 + 1 * (j 0).val; omega
    | ⟨1, _⟩ => show win0_2.index t (1 : Fin 2) * 1 + 1 * (j 1).val = win0_9.index t (1 : Fin 2) * 1 + 1 * (j 1).val; omega
  rw [h]

theorem mem_band_labels (t : Fin cfg0.N) (i : S4096x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v8_2).slice (win0_9.rect t)).set ↔ _
  rw [View.set_slice_whole, Rect.mem_set_unit]
  exact Iff.rfl

theorem cover_labels (i : S4096x1.Idx) : ∃ t : Fin cfg0.N, (cfg0.win 9).flush t = true ∧ i ∈ ((cfg0.win 9).blk t).view.set := by
  have hi0 : (i 0).val < 4096 := (i 0).isLt
  have hi1 : (i 1).val < 1 := (i 1).isLt
  obtain ⟨t, ht⟩ := band_onto ⟨(i 0).val / 512, by omega⟩
  have ht' : t.val = (i 0).val / 512 := ht
  obtain ⟨-, -, -, -, -, -, -, -, -, -, -, -, -, -, -, -, -, -, e90, e91⟩ := band_facts t
  refine ⟨t, flush0_9 t, ?_⟩
  rw [mem_band_labels]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1 ≤ (i 1).val ∧ (i 1).val < win0_9.index t (1 : Fin 2) * 1 + 1; omega

/-- The class array after the launch is the class column it was given. -/
theorem labels (c : Dev nD) (r : Fin 4096) :
    (dat0 (F := Ideal) V c).arrAt 9 cfg0.N (ix2 r (0 : Fin 1)) = V c main_v2 (ix2 r (0 : Fin 1)) :=
  congrFun ((dat0 (F := Ideal) V c).arrAt_eq_of_cover 9 (labelsG V c) (fun t _ => flushed_labels V c t) cover_labels) (ix2 r (0 : Fin 1))

/-! ## The directions -/

/-- `dir` depends on its five operands entry by entry. -/
theorem dir_congr {x x' : Fin 5 → EReal} {w1 w1' : Fin 64 → Fin 5 → EReal} {b1 b1' : Fin 64 → EReal}
    {w2 w2' : Fin 32 → Fin 64 → EReal} {b2 b2' : Fin 32 → EReal} {q q' : Fin 32}
    (hx : ∀ d, x d = x' d) (hw1 : ∀ h d, w1 h d = w1' h d) (hb1 : ∀ h, b1 h = b1' h)
    (hw2 : ∀ k h, w2 k h = w2' k h) (hb2 : ∀ k, b2 k = b2' k) (hq : q = q') :
    dir x w1 b1 w2 b2 q = dir x' w1' b1' w2' b2' q' := by
  obtain rfl : x = x' := funext hx
  obtain rfl : w1 = w1' := funext fun h => funext (hw1 h)
  obtain rfl : b1 = b1' := funext hb1
  obtain rfl : w2 = w2' := funext fun k => funext (hw2 k)
  obtain rfl : b2 = b2' := funext hb2
  rw [hq]

/-- The whole array the direction window ends holding: at `(r, q)` the direction of row `r` of the features. -/
abbrev dirsG (c : Dev nD) : S4096x32.Idx → EReal := fun i =>
  dir (fun d => V c main_v0 (ix2 (⟨(i 0).val, (i 0).isLt⟩ : Fin 4096) d)) (fun h d => V c main_arg2 (ix2 h d))
    (fun h => V c main_v6 (ix2 (0 : Fin 1) h)) (fun k h => V c main_arg4 (ix2 k h)) (fun k => V c main_v7 (ix2 (0 : Fin 1) k))
    (⟨(i 1).val, (i 1).isLt⟩ : Fin 32)

/-- What point `t` writes back to the direction array is band `t` of `dirsG`: the feature band is read at the output
    band's rows, the four weight arrays whole. -/
theorem flushed_dirs (c : Dev nD) (t : Fin cfg0.N) :
    (dat0 (F := Ideal) V c).flushed 7 t = ((cfg0.win 7).blk t).view.read (Elt Ideal) (dirsG V c) := by
  show (cfg0.win 7).cut (grid0.coords t) ((dat0 (F := Ideal) V c).after 7 t) = _
  rw [after0_7]
  unfold out0_7
  rw [View.canon_unit_zero hz]
  simp only [View.ld_unit_zero (S := S512x5) hz, View.ld_unit_zero (S := S64x5) hz, View.ld_unit_zero (S := S1x64) hz,
    View.ld_unit_zero (S := S32x64) hz, View.ld_unit_zero (S := S1x32) hz]
  obtain ⟨e00, e01, -, -, -, -, e30, e31, e40, e41, e50, e51, e60, e61, e70, e71, -, -, -, -⟩ := band_facts t
  funext j
  obtain ⟨p, q, rfl⟩ : ∃ (p : Fin 512) (q : Fin 32), j = ix2 p q := ⟨j 0, j 1, eq_ix2 j⟩
  refine (EmbedBody.dir_of_block _ _ _ _ _ p q).trans ?_
  refine dir_congr (fun d => ?_) (fun h d => ?_) (fun h => ?_) (fun k h => ?_) (fun k => ?_) ?_
  · show V c main_v0 (((cfg0.win 0).blk t).view.emb (ix2 p d)) = V c main_v0 _
    refine congrArg (V c main_v0) (funext fun a => Fin.ext ?_)
    match a with
    | ⟨0, _⟩ => show win0_0.index t (0 : Fin 2) * 512 + 1 * p.val = win0_7.index t (0 : Fin 2) * 512 + 1 * p.val; omega
    | ⟨1, _⟩ => show win0_0.index t (1 : Fin 2) * 5 + 1 * d.val = d.val; omega
  · show V c main_arg2 (((cfg0.win 3).blk t).view.emb (ix2 h d)) = V c main_arg2 _
    refine congrArg (V c main_arg2) (funext fun a => Fin.ext ?_)
    match a with
    | ⟨0, _⟩ => show win0_3.index t (0 : Fin 2) * 64 + 1 * h.val = h.val; omega
    | ⟨1, _⟩ => show win0_3.index t (1 : Fin 2) * 5 + 1 * d.val = d.val; omega
  · show V c main_v6 (((cfg0.win 4).blk t).view.emb (ix2 (0 : Fin 1) h)) = V c main_v6 _
    refine congrArg (V c main_v6) (funext fun a => Fin.ext ?_)
    match a with
    | ⟨0, _⟩ => show win0_4.index t (0 : Fin 2) * 1 + 1 * 0 = 0; omega
    | ⟨1, _⟩ => show win0_4.index t (1 : Fin 2) * 64 + 1 * h.val = h.val; omega
  · show V c main_arg4 (((cfg0.win 5).blk t).view.emb (ix2 k h)) = V c main_arg4 _
    refine congrArg (V c main_arg4) (funext fun a => Fin.ext ?_)
    match a with
    | ⟨0, _⟩ => show win0_5.index t (0 : Fin 2) * 32 + 1 * k.val = k.val; omega
    | ⟨1, _⟩ => show win0_5.index t (1 : Fin 2) * 64 + 1 * h.val = h.val; omega
  · show V c main_v7 (((cfg0.win 6).blk t).view.emb (ix2 (0 : Fin 1) k)) = V c main_v7 _
    refine congrArg (V c main_v7) (funext fun a => Fin.ext ?_)
    match a with
    | ⟨0, _⟩ => show win0_6.index t (0 : Fin 2) * 1 + 1 * 0 = 0; omega
    | ⟨1, _⟩ => show win0_6.index t (1 : Fin 2) * 32 + 1 * k.val = k.val; omega
  · apply Fin.ext
    show q.val = win0_7.index t (1 : Fin 2) * 32 + 1 * q.val
    omega

theorem mem_band_dirs (t : Fin cfg0.N) (i : S4096x32.Idx) :
    i ∈ ((cfg0.win 7).blk t).view.set ↔ ∀ a : Fin 2, win0_7.index t a * S512x32.size a ≤ (i a).val ∧ (i a).val < win0_7.index t a * S512x32.size a + S512x32.size a := by
  show i ∈ ((View.whole main_v8_0).slice (win0_7.rect t)).set ↔ _
  rw [View.set_slice_whole, Rect.mem_set_unit]
  exact Iff.rfl

theorem cover_dirs (i : S4096x32.Idx) : ∃ t : Fin cfg0.N, (cfg0.win 7).flush t = true ∧ i ∈ ((cfg0.win 7).blk t).view.set := by
  have hi0 : (i 0).val < 4096 := (i 0).isLt
  have hi1 : (i 1).val < 32 := (i 1).isLt
  obtain ⟨t, ht⟩ := band_onto ⟨(i 0).val / 512, by omega⟩
  have ht' : t.val = (i 0).val / 512 := ht
  obtain ⟨-, -, -, -, -, -, -, -, -, -, -, -, -, -, e70, e71, -, -, -, -⟩ := band_facts t
  refine ⟨t, flush0_7 t, ?_⟩
  rw [mem_band_dirs]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 32 ≤ (i 1).val ∧ (i 1).val < win0_7.index t (1 : Fin 2) * 32 + 32; omega

/-- The direction array after the launch: entry `(r, q)` is `dir` of row `r` of the feature array. -/
theorem dirs (c : Dev nD) (r : Fin 4096) (q : Fin 32) :
    (dat0 (F := Ideal) V c).arrAt 7 cfg0.N (ix2 r q)
      = dir (fun d => V c main_v0 (ix2 r d)) (fun h d => V c main_arg2 (ix2 h d)) (fun h => V c main_v6 (ix2 (0 : Fin 1) h))
          (fun k h => V c main_arg4 (ix2 k h)) (fun k => V c main_v7 (ix2 (0 : Fin 1) k)) q :=
  congrFun ((dat0 (F := Ideal) V c).arrAt_eq_of_cover 7 (dirsG V c) (fun t _ => flushed_dirs V c t) cover_dirs) (ix2 r q)

end Cert.KernelIdeal.EmbedArrays0

end
-- ==== Proof.EmbedArrays1.lean ====
/-
  An embedding launch, from blocks to arrays. The grid has eight points; point `t` reads rows
  `512 t .. 512 t + 511` of the feature, confidence and class arrays, the whole of the four weight arrays, and writes
  the same rows of the three result arrays. The eight row bands tile the 4096 rows, so each result array is, row by row,
  the body's value of that row: the direction of the row, the roots of its confidences, its class label. Stated
  at any contents `V` of the buffers at the launch's entry.
-/
import proofs.«117339_j76819785056585_1_alg».proof.Proof.Gen.KernelIdeal.Frame
import proofs.«117339_j76819785056585_1_alg».proof.Proof.EmbedBody
import Idealize.ShloMosaic.Lib.Pipeline.Value

open scoped BigOperators

noncomputable section

namespace Cert.KernelIdeal.EmbedArrays1

open Cert.KernelIdeal Cert.KernelIdeal.Gen Cert.CosinePair Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the eight grid points: a banded window's block is (the point's number, 0), a weight
    window's block is (0, 0). -/
theorem band_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Every band is some point's. -/
theorem band_onto : ∀ q : Fin 8, ∃ t : Fin cfg1.N, t.val = q.val :=
  (by decide +kernel : ∀ q : Fin 8, ∃ t : Fin grid1.N, t.val = q.val)

/-! ## The confidence roots -/

/-- The whole array the root window ends holding. -/
abbrev rootsG (c : Dev nD) : S4096x16.Idx → EReal := fun i => Ideal.sqrt (V c main_v5 i)

/-- What point `t` writes back to the root array is band `t` of `rootsG`. -/
theorem flushed_roots (c : Dev nD) (t : Fin cfg1.N) :
    (dat1 (F := Ideal) V c).flushed 8 t = ((cfg1.win 8).blk t).view.read (Elt Ideal) (rootsG V c) := by
  show (cfg1.win 8).cut (grid1.coords t) ((dat1 (F := Ideal) V c).after 8 t) = _
  rw [after1_8]
  unfold out1_8
  rw [View.canon_unit_zero hz]
  simp only [View.ld_unit_zero (S := S512x16) hz]
  obtain ⟨-, -, e10, e11, -, -, -, -, -, -, -, -, -, -, -, -, e80, e81, -, -⟩ := band_facts t
  funext j
  refine (EmbedBody.root_of_block' _ j).trans ?_
  show Ideal.sqrt (V c main_v5 (((cfg1.win 1).blk t).view.emb j)) = Ideal.sqrt (V c main_v5 (((cfg1.win 8).blk t).view.emb j))
  have h : ((cfg1.win 1).blk t).view.emb j = ((cfg1.win 8).blk t).view.emb j := by
    funext a; apply Fin.ext
    match a with
    | ⟨0, _⟩ => show win1_1.index t (0 : Fin 2) * 512 + 1 * (j 0).val = win1_8.index t (0 : Fin 2) * 512 + 1 * (j 0).val; omega
    | ⟨1, _⟩ => show win1_1.index t (1 : Fin 2) * 16 + 1 * (j 1).val = win1_8.index t (1 : Fin 2) * 16 + 1 * (j 1).val; omega
  rw [h]

/-- An index of the root array is in point `t`'s band iff each coordinate is in the band's range. -/
theorem mem_band_roots (t : Fin cfg1.N) (i : S4096x16.Idx) :
    i ∈ ((cfg1.win 8).blk t).view.set ↔ ∀ a : Fin 2, win1_8.index t a * S512x16.size a ≤ (i a).val ∧ (i a).val < win1_8.index t a * S512x16.size a + S512x16.size a := by
  show i ∈ ((View.whole main_v11_1).slice (win1_8.rect t)).set ↔ _
  rw [View.set_slice_whole, Rect.mem_set_unit]
  exact Iff.rfl

/-- The bands cover the root array: row `r` is in band `r / 512`. -/
theorem cover_roots (i : S4096x16.Idx) : ∃ t : Fin cfg1.N, (cfg1.win 8).flush t = true ∧ i ∈ ((cfg1.win 8).blk t).view.set := by
  have hi0 : (i 0).val < 4096 := (i 0).isLt
  have hi1 : (i 1).val < 16 := (i 1).isLt
  obtain ⟨t, ht⟩ := band_onto ⟨(i 0).val / 512, by omega⟩
  have ht' : t.val = (i 0).val / 512 := ht
  obtain ⟨-, -, -, -, -, -, -, -, -, -, -, -, -, -, -, -, e80, e81, -, -⟩ := band_facts t
  refine ⟨t, flush1_8 t, ?_⟩
  rw [mem_band_roots]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 16 ≤ (i 1).val ∧ (i 1).val < win1_8.index t (1 : Fin 2) * 16 + 16; omega

/-- The confidence-root array after the launch. -/
theorem roots (c : Dev nD) (r : Fin 4096) (s : Fin 16) :
    (dat1 (F := Ideal) V c).arrAt 8 cfg1.N (ix2 r s) = Ideal.sqrt (V c main_v5 (ix2 r s)) :=
  congrFun ((dat1 (F := Ideal) V c).arrAt_eq_of_cover 8 (rootsG V c) (fun t _ => flushed_roots V c t) cover_roots) (ix2 r s)

/-! ## The class labels -/

/-- The whole array the class window ends holding: the class column it was given. -/
abbrev labelsG (c : Dev nD) : S4096x1.Idx → EReal := fun i => V c main_v3 i

/-- What point `t` writes back to the class array is band `t` of the class column. -/
theorem flushed_labels (c : Dev nD) (t : Fin cfg1.N) :
    (dat1 (F := Ideal) V c).flushed 9 t = ((cfg1.win 9).blk t).view.read (Elt Ideal) (labelsG V c) := by
  show (cfg1.win 9).cut (grid1.coords t) ((dat1 (F := Ideal) V c).after 9 t) = _
  rw [after1_9]
  unfold out1_9
  rw [View.canon_unit_zero hz]
  simp only [View.ld_unit_zero (S := S512x1) hz]
  obtain ⟨-, -, -, -, e20, e21, -, -, -, -, -, -, -, -, -, -, -, -, e90, e91⟩ := band_facts t
  funext j
  refine (EmbedBody.label_of_block' _ j).trans ?_
  show V c main_v3 (((cfg1.win 2).blk t).view.emb j) = V c main_v3 (((cfg1.win 9).blk t).view.emb j)
  have h : ((cfg1.win 2).blk t).view.emb j = ((cfg1.win 9).blk t).view.emb j := by
    funext a; apply Fin.ext
    match a with
    | ⟨0, _⟩ => show win1_2.index t (0 : Fin 2) * 512 + 1 * (j 0).val = win1_9.index t (0 : Fin 2) * 512 + 1 * (j 0).val; omega
    | ⟨1, _⟩ => show win1_2.index t (1 : Fin 2) * 1 + 1 * (j 1).val = win1_9.index t (1 : Fin 2) * 1 + 1 * (j 1).val; omega
  rw [h]

theorem mem_band_labels (t : Fin cfg1.N) (i : S4096x1.Idx) :
    i ∈ ((cfg1.win 9).blk t).view.set ↔ ∀ a : Fin 2, win1_9.index t a * S512x1.size a ≤ (i a).val ∧ (i a).val < win1_9.index t a * S512x1.size a + S512x1.size a := by
  show i ∈ ((View.whole main_v11_2).slice (win1_9.rect t)).set ↔ _
  rw [View.set_slice_whole, Rect.mem_set_unit]
  exact Iff.rfl

theorem cover_labels (i : S4096x1.Idx) : ∃ t : Fin cfg1.N, (cfg1.win 9).flush t = true ∧ i ∈ ((cfg1.win 9).blk t).view.set := by
  have hi0 : (i 0).val < 4096 := (i 0).isLt
  have hi1 : (i 1).val < 1 := (i 1).isLt
  obtain ⟨t, ht⟩ := band_onto ⟨(i 0).val / 512, by omega⟩
  have ht' : t.val = (i 0).val / 512 := ht
  obtain ⟨-, -, -, -, -, -, -, -, -, -, -, -, -, -, -, -, -, -, e90, e91⟩ := band_facts t
  refine ⟨t, flush1_9 t, ?_⟩
  rw [mem_band_labels]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 1 ≤ (i 1).val ∧ (i 1).val < win1_9.index t (1 : Fin 2) * 1 + 1; omega

/-- The class array after the launch is the class column it was given. -/
theorem labels (c : Dev nD) (r : Fin 4096) :
    (dat1 (F := Ideal) V c).arrAt 9 cfg1.N (ix2 r (0 : Fin 1)) = V c main_v3 (ix2 r (0 : Fin 1)) :=
  congrFun ((dat1 (F := Ideal) V c).arrAt_eq_of_cover 9 (labelsG V c) (fun t _ => flushed_labels V c t) cover_labels) (ix2 r (0 : Fin 1))

/-! ## The directions -/

/-- `dir` depends on its five operands entry by entry. -/
theorem dir_congr {x x' : Fin 5 → EReal} {w1 w1' : Fin 64 → Fin 5 → EReal} {b1 b1' : Fin 64 → EReal}
    {w2 w2' : Fin 32 → Fin 64 → EReal} {b2 b2' : Fin 32 → EReal} {q q' : Fin 32}
    (hx : ∀ d, x d = x' d) (hw1 : ∀ h d, w1 h d = w1' h d) (hb1 : ∀ h, b1 h = b1' h)
    (hw2 : ∀ k h, w2 k h = w2' k h) (hb2 : ∀ k, b2 k = b2' k) (hq : q = q') :
    dir x w1 b1 w2 b2 q = dir x' w1' b1' w2' b2' q' := by
  obtain rfl : x = x' := funext hx
  obtain rfl : w1 = w1' := funext fun h => funext (hw1 h)
  obtain rfl : b1 = b1' := funext hb1
  obtain rfl : w2 = w2' := funext fun k => funext (hw2 k)
  obtain rfl : b2 = b2' := funext hb2
  rw [hq]

/-- The whole array the direction window ends holding: at `(r, q)` the direction of row `r` of the features. -/
abbrev dirsG (c : Dev nD) : S4096x32.Idx → EReal := fun i =>
  dir (fun d => V c main_v1 (ix2 (⟨(i 0).val, (i 0).isLt⟩ : Fin 4096) d)) (fun h d => V c main_arg2 (ix2 h d))
    (fun h => V c main_v9 (ix2 (0 : Fin 1) h)) (fun k h => V c main_arg4 (ix2 k h)) (fun k => V c main_v10 (ix2 (0 : Fin 1) k))
    (⟨(i 1).val, (i 1).isLt⟩ : Fin 32)

/-- What point `t` writes back to the direction array is band `t` of `dirsG`: the feature band is read at the output
    band's rows, the four weight arrays whole. -/
theorem flushed_dirs (c : Dev nD) (t : Fin cfg1.N) :
    (dat1 (F := Ideal) V c).flushed 7 t = ((cfg1.win 7).blk t).view.read (Elt Ideal) (dirsG V c) := by
  show (cfg1.win 7).cut (grid1.coords t) ((dat1 (F := Ideal) V c).after 7 t) = _
  rw [after1_7]
  unfold out1_7
  rw [View.canon_unit_zero hz]
  simp only [View.ld_unit_zero (S := S512x5) hz, View.ld_unit_zero (S := S64x5) hz, View.ld_unit_zero (S := S1x64) hz,
    View.ld_unit_zero (S := S32x64) hz, View.ld_unit_zero (S := S1x32) hz]
  obtain ⟨e00, e01, -, -, -, -, e30, e31, e40, e41, e50, e51, e60, e61, e70, e71, -, -, -, -⟩ := band_facts t
  funext j
  obtain ⟨p, q, rfl⟩ : ∃ (p : Fin 512) (q : Fin 32), j = ix2 p q := ⟨j 0, j 1, eq_ix2 j⟩
  refine (EmbedBody.dir_of_block' _ _ _ _ _ p q).trans ?_
  refine dir_congr (fun d => ?_) (fun h d => ?_) (fun h => ?_) (fun k h => ?_) (fun k => ?_) ?_
  · show V c main_v1 (((cfg1.win 0).blk t).view.emb (ix2 p d)) = V c main_v1 _
    refine congrArg (V c main_v1) (funext fun a => Fin.ext ?_)
    match a with
    | ⟨0, _⟩ => show win1_0.index t (0 : Fin 2) * 512 + 1 * p.val = win1_7.index t (0 : Fin 2) * 512 + 1 * p.val; omega
    | ⟨1, _⟩ => show win1_0.index t (1 : Fin 2) * 5 + 1 * d.val = d.val; omega
  · show V c main_arg2 (((cfg1.win 3).blk t).view.emb (ix2 h d)) = V c main_arg2 _
    refine congrArg (V c main_arg2) (funext fun a => Fin.ext ?_)
    match a with
    | ⟨0, _⟩ => show win1_3.index t (0 : Fin 2) * 64 + 1 * h.val = h.val; omega
    | ⟨1, _⟩ => show win1_3.index t (1 : Fin 2) * 5 + 1 * d.val = d.val; omega
  · show V c main_v9 (((cfg1.win 4).blk t).view.emb (ix2 (0 : Fin 1) h)) = V c main_v9 _
    refine congrArg (V c main_v9) (funext fun a => Fin.ext ?_)
    match a with
    | ⟨0, _⟩ => show win1_4.index t (0 : Fin 2) * 1 + 1 * 0 = 0; omega
    | ⟨1, _⟩ => show win1_4.index t (1 : Fin 2) * 64 + 1 * h.val = h.val; omega
  · show V c main_arg4 (((cfg1.win 5).blk t).view.emb (ix2 k h)) = V c main_arg4 _
    refine congrArg (V c main_arg4) (funext fun a => Fin.ext ?_)
    match a with
    | ⟨0, _⟩ => show win1_5.index t (0 : Fin 2) * 32 + 1 * k.val = k.val; omega
    | ⟨1, _⟩ => show win1_5.index t (1 : Fin 2) * 64 + 1 * h.val = h.val; omega
  · show V c main_v10 (((cfg1.win 6).blk t).view.emb (ix2 (0 : Fin 1) k)) = V c main_v10 _
    refine congrArg (V c main_v10) (funext fun a => Fin.ext ?_)
    match a with
    | ⟨0, _⟩ => show win1_6.index t (0 : Fin 2) * 1 + 1 * 0 = 0; omega
    | ⟨1, _⟩ => show win1_6.index t (1 : Fin 2) * 32 + 1 * k.val = k.val; omega
  · apply Fin.ext
    show q.val = win1_7.index t (1 : Fin 2) * 32 + 1 * q.val
    omega

theorem mem_band_dirs (t : Fin cfg1.N) (i : S4096x32.Idx) :
    i ∈ ((cfg1.win 7).blk t).view.set ↔ ∀ a : Fin 2, win1_7.index t a * S512x32.size a ≤ (i a).val ∧ (i a).val < win1_7.index t a * S512x32.size a + S512x32.size a := by
  show i ∈ ((View.whole main_v11_0).slice (win1_7.rect t)).set ↔ _
  rw [View.set_slice_whole, Rect.mem_set_unit]
  exact Iff.rfl

theorem cover_dirs (i : S4096x32.Idx) : ∃ t : Fin cfg1.N, (cfg1.win 7).flush t = true ∧ i ∈ ((cfg1.win 7).blk t).view.set := by
  have hi0 : (i 0).val < 4096 := (i 0).isLt
  have hi1 : (i 1).val < 32 := (i 1).isLt
  obtain ⟨t, ht⟩ := band_onto ⟨(i 0).val / 512, by omega⟩
  have ht' : t.val = (i 0).val / 512 := ht
  obtain ⟨-, -, -, -, -, -, -, -, -, -, -, -, -, -, e70, e71, -, -, -, -⟩ := band_facts t
  refine ⟨t, flush1_7 t, ?_⟩
  rw [mem_band_dirs]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 32 ≤ (i 1).val ∧ (i 1).val < win1_7.index t (1 : Fin 2) * 32 + 32; omega

/-- The direction array after the launch: entry `(r, q)` is `dir` of row `r` of the feature array. -/
theorem dirs (c : Dev nD) (r : Fin 4096) (q : Fin 32) :
    (dat1 (F := Ideal) V c).arrAt 7 cfg1.N (ix2 r q)
      = dir (fun d => V c main_v1 (ix2 r d)) (fun h d => V c main_arg2 (ix2 h d)) (fun h => V c main_v9 (ix2 (0 : Fin 1) h))
          (fun k h => V c main_arg4 (ix2 k h)) (fun k => V c main_v10 (ix2 (0 : Fin 1) k)) q :=
  congrFun ((dat1 (F := Ideal) V c).arrAt_eq_of_cover 7 (dirsG V c) (fun t _ => flushed_dirs V c t) cover_dirs) (ix2 r q)

end Cert.KernelIdeal.EmbedArrays1

end
-- ==== Proof.PairBody.lean ====
/-
  The pairwise kernel's stored value at `(p, j)` of its 512 × 4096 block: the class bit of row `p` against column
  `j`, times the inner product of row `p` of the confidence roots with column `j` of their transpose, times the inner
  product of row `p` of the directions with column `j` of their transpose. The body widens the comparison bit to 32
  bits without sign and reads it as a signed integer, which is the bit read as a natural number.
-/
import proofs.«117339_j76819785056585_1_alg».proof.Proof.Gen.KernelIdeal.Skeleton
import proofs.«117339_j76819785056585_1_alg».proof.Proof.Spec
import proofs.«117339_j76819785056585_1_alg».proof.Proof.LibKeepdims
import proofs.«117339_j76819785056585_1_alg».proof.Proof.LibDotRows
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.PairBody

open Cert.KernelIdeal Cert.KernelIdeal.Gen Cert.CosinePair Idealize.ShloMosaic Idealize.ShloMosaic.ValueIdx

/-! ## The body's three factors on the block -/

/-- The class bit of every row against every column, widened to 32 bits and read as a signed integer. -/
private def sameBlock (c1 : FVec Ideal S512x1 .f32) (c2r : FVec Ideal S1x4096 .f32) : FVec Ideal S512x4096 .f32 :=
  sitofp .f32
    (extui 32
      (cmpf .oeq (broadcastTo S512x4096 (shapeCast S512x1 c1 shapeCasts_S512x1_S512x1) broadcasts_S512x1_S512x4096)
        (broadcastTo S512x4096 (shapeCast S1x4096 c2r shapeCasts_S1x4096_S1x4096) broadcasts_S1x4096_S512x4096))
      natLt_1_32)

/-- The confidence roots of the rows against those of the columns. -/
private def confBlock (s1 : FVec Ideal S512x16 .f32) (s2t : FVec Ideal S16x4096 .f32) : FVec Ideal S512x4096 .f32 :=
  matmul dot_S512x16_S16x4096_S512x4096_1_0_0_1_n_n none (shapeCast S512x16 s1 shapeCasts_S512x16_S512x16)
    (shapeCast S16x4096 s2t shapeCasts_S16x4096_S16x4096) (constant S512x4096 .f32 0x00000000#32)

/-- The directions of the rows against those of the columns. -/
private def dirBlock (n1 : FVec Ideal S512x32 .f32) (n2t : FVec Ideal S32x4096 .f32) : FVec Ideal S512x4096 .f32 :=
  matmul dot_S512x32_S32x4096_S512x4096_1_0_0_1_n_n none (shapeCast S512x32 n1 shapeCasts_S512x32_S512x32)
    (shapeCast S32x4096 n2t shapeCasts_S32x4096_S32x4096) (constant S512x4096 .f32 0x00000000#32)

/-- At `(p, j)` the class factor compares row `p`'s label with column `j`'s: the column broadcast reads `(p, 0)`, the
    row broadcast `(0, j)`, and the widened bit read as a signed integer is the bit read as a natural number. -/
private theorem sameBlock_apply (c1 : FVec Ideal S512x1 .f32) (c2r : FVec Ideal S1x4096 .f32) (p : Fin 512) (j : Fin 4096) :
    sameBlock c1 c2r (ix2 p j) = same (c1 (ix2 p (0 : Fin 1))) (c2r (ix2 (0 : Fin 1) j)) := by
  unfold sameBlock
  rw [sitofp_apply, extui_apply, cmpf_apply, broadcastTo_a1_ab_apply, broadcastTo_1b_ab_apply, shapeCast_self, shapeCast_self]
  exact sitofp_setWidth_cmp _ _

/-- At `(p, j)` the confidence factor is the inner product of row `p` with column `j`, over the 16 classes in order. -/
private theorem confBlock_apply (s1 : FVec Ideal S512x16 .f32) (s2t : FVec Ideal S16x4096 .f32) (p : Fin 512) (j : Fin 4096) :
    confBlock s1 s2t (ix2 p j) = ∑ c : Fin 16, s1 (ix2 p c) * s2t (ix2 c j) := by
  unfold confBlock
  refine (matmul_zero_apply _ none _ _ p j).trans (Finset.sum_congr rfl fun c _ => ?_)
  rw [shapeCast_self, shapeCast_self]

/-- At `(p, j)` the direction factor is the inner product of row `p` with column `j`, over the 32 features in order. -/
private theorem dirBlock_apply (n1 : FVec Ideal S512x32 .f32) (n2t : FVec Ideal S32x4096 .f32) (p : Fin 512) (j : Fin 4096) :
    dirBlock n1 n2t (ix2 p j) = ∑ k : Fin 32, n1 (ix2 p k) * n2t (ix2 k j) := by
  unfold dirBlock
  refine (matmul_zero_apply _ none _ _ p j).trans (Finset.sum_congr rfl fun k _ => ?_)
  rw [shapeCast_self, shapeCast_self]

/-- The stored entry at `(p, j)` is `pair` of row `p` of the left operands and column `j` of the transposed ones. -/
theorem pair_of_block (n1 : Vec Ideal S512x32 .f32) (n2t : Vec Ideal S32x4096 .f32) (s1 : Vec Ideal S512x16 .f32)
    (s2t : Vec Ideal S16x4096 .f32) (c1 : Vec Ideal S512x1 .f32) (c2r : Vec Ideal S1x4096 .f32) (p : Fin 512) (j : Fin 4096) :
    k2_pay1 (F := Ideal) n1 n2t s1 s2t c1 c2r (ix2 p j)
      = pair (fun k => n1 (ix2 p k)) (fun k => n2t (ix2 k j)) (fun s => s1 (ix2 p s)) (fun s => s2t (ix2 s j))
          (c1 (ix2 p (0 : Fin 1))) (c2r (ix2 (0 : Fin 1) j)) := by
  have e : k2_pay1 (F := Ideal) n1 n2t s1 s2t c1 c2r
      = mulf (mulf (sameBlock c1 c2r) (confBlock s1 s2t)) (dirBlock n1 n2t) := rfl
  rw [e, mulf_apply, mulf_apply, sameBlock_apply, confBlock_apply, dirBlock_apply]
  rfl

end Cert.KernelIdeal.PairBody

end
-- ==== Proof.PairArrays.lean ====
/-
  The pairwise launch, from blocks to the array. Point `t` of its eight reads rows `512 t ..` of the left operands,
  the whole of the three transposed right operands, and writes the same rows of the 4096 × 4096 result. The row
  bands tile the result, so entry `(i, j)` is the body's value from row `i` and column `j`. Stated at any contents `V`
  of the buffers at the launch's entry.
-/
import proofs.«117339_j76819785056585_1_alg».proof.Proof.Gen.KernelIdeal.Frame
import proofs.«117339_j76819785056585_1_alg».proof.Proof.PairBody
import Idealize.ShloMosaic.Lib.Pipeline.Value

open scoped BigOperators

noncomputable section

namespace Cert.KernelIdeal.PairArrays

open Cert.KernelIdeal Cert.KernelIdeal.Gen Cert.CosinePair Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the eight grid points: a banded window's block is (the point's number, 0), a
    transposed operand's block is (0, 0). -/
theorem band_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every band is some point's. -/
theorem band_onto : ∀ q : Fin 8, ∃ t : Fin cfg2.N, t.val = q.val :=
  (by decide +kernel : ∀ q : Fin 8, ∃ t : Fin grid2.N, t.val = q.val)

/-- `pair` depends on its six operands entry by entry. -/
theorem pair_congr {n1 n1' n2 n2' : Fin 32 → EReal} {s1 s1' s2 s2' : Fin 16 → EReal} {c1 c1' c2 c2' : EReal}
    (h1 : ∀ k, n1 k = n1' k) (h2 : ∀ k, n2 k = n2' k) (h3 : ∀ s, s1 s = s1' s) (h4 : ∀ s, s2 s = s2' s)
    (h5 : c1 = c1') (h6 : c2 = c2') : pair n1 n2 s1 s2 c1 c2 = pair n1' n2' s1' s2' c1' c2' := by
  obtain rfl : n1 = n1' := funext h1
  obtain rfl : n2 = n2' := funext h2
  obtain rfl : s1 = s1' := funext h3
  obtain rfl : s2 = s2' := funext h4
  rw [h5, h6]

/-- The whole array the result window ends holding: at `(i, j)` the pairing of row `i` of the left operands with
    column `j` of the transposed ones. -/
abbrev entriesG (c : Dev nD) : S4096x4096.Idx → EReal := fun i =>
  pair (fun k => V c main_v8_0 (ix2 (⟨(i 0).val, (i 0).isLt⟩ : Fin 4096) k))
    (fun k => V c main_v12 (ix2 k (⟨(i 1).val, (i 1).isLt⟩ : Fin 4096)))
    (fun s => V c main_v8_1 (ix2 (⟨(i 0).val, (i 0).isLt⟩ : Fin 4096) s))
    (fun s => V c main_v13 (ix2 s (⟨(i 1).val, (i 1).isLt⟩ : Fin 4096)))
    (V c main_v8_2 (ix2 (⟨(i 0).val, (i 0).isLt⟩ : Fin 4096) (0 : Fin 1)))
    (V c main_v14 (ix2 (0 : Fin 1) (⟨(i 1).val, (i 1).isLt⟩ : Fin 4096)))

/-- What point `t` writes back is band `t` of `entriesG`: the three left operands are read at the output band's rows,
    the three transposed ones whole. -/
theorem flushed_entries (c : Dev nD) (t : Fin cfg2.N) :
    (dat2 (F := Ideal) V c).flushed 6 t = ((cfg2.win 6).blk t).view.read (Elt Ideal) (entriesG V c) := by
  show (cfg2.win 6).cut (grid2.coords t) ((dat2 (F := Ideal) V c).after 6 t) = _
  rw [after2_6]
  unfold out2_6
  rw [View.canon_unit_zero hz]
  simp only [View.ld_unit_zero (S := S512x32) hz, View.ld_unit_zero (S := S32x4096) hz, View.ld_unit_zero (S := S512x16) hz,
    View.ld_unit_zero (S := S16x4096) hz, View.ld_unit_zero (S := S512x1) hz, View.ld_unit_zero (S := S1x4096) hz]
  obtain ⟨e00, e01, e10, e11, e20, e21, e30, e31, e40, e41, e50, e51, e60, e61⟩ := band_facts t
  funext j
  obtain ⟨p, q, rfl⟩ : ∃ (p : Fin 512) (q : Fin 4096), j = ix2 p q := ⟨j 0, j 1, eq_ix2 j⟩
  refine (PairBody.pair_of_block _ _ _ _ _ _ p q).trans ?_
  refine pair_congr (fun k => ?_) (fun k => ?_) (fun s => ?_) (fun s => ?_) ?_ ?_
  · show V c main_v8_0 (((cfg2.win 0).blk t).view.emb (ix2 p k)) = V c main_v8_0 _
    refine congrArg (V c main_v8_0) (funext fun a => Fin.ext ?_)
    match a with
    | ⟨0, _⟩ => show win2_0.index t (0 : Fin 2) * 512 + 1 * p.val = win2_6.index t (0 : Fin 2) * 512 + 1 * p.val; omega
    | ⟨1, _⟩ => show win2_0.index t (1 : Fin 2) * 32 + 1 * k.val = k.val; omega
  · show V c main_v12 (((cfg2.win 1).blk t).view.emb (ix2 k q)) = V c main_v12 _
    refine congrArg (V c main_v12) (funext fun a => Fin.ext ?_)
    match a with
    | ⟨0, _⟩ => show win2_1.index t (0 : Fin 2) * 32 + 1 * k.val = k.val; omega
    | ⟨1, _⟩ => show win2_1.index t (1 : Fin 2) * 4096 + 1 * q.val = win2_6.index t (1 : Fin 2) * 4096 + 1 * q.val; omega
  · show V c main_v8_1 (((cfg2.win 2).blk t).view.emb (ix2 p s)) = V c main_v8_1 _
    refine congrArg (V c main_v8_1) (funext fun a => Fin.ext ?_)
    match a with
    | ⟨0, _⟩ => show win2_2.index t (0 : Fin 2) * 512 + 1 * p.val = win2_6.index t (0 : Fin 2) * 512 + 1 * p.val; omega
    | ⟨1, _⟩ => show win2_2.index t (1 : Fin 2) * 16 + 1 * s.val = s.val; omega
  · show V c main_v13 (((cfg2.win 3).blk t).view.emb (ix2 s q)) = V c main_v13 _
    refine congrArg (V c main_v13) (funext fun a => Fin.ext ?_)
    match a with
    | ⟨0, _⟩ => show win2_3.index t (0 : Fin 2) * 16 + 1 * s.val = s.val; omega
    | ⟨1, _⟩ => show win2_3.index t (1 : Fin 2) * 4096 + 1 * q.val = win2_6.index t (1 : Fin 2) * 4096 + 1 * q.val; omega
  · show V c main_v8_2 (((cfg2.win 4).blk t).view.emb (ix2 p (0 : Fin 1))) = V c main_v8_2 _
    refine congrArg (V c main_v8_2) (funext fun a => Fin.ext ?_)
    match a with
    | ⟨0, _⟩ => show win2_4.index t (0 : Fin 2) * 512 + 1 * p.val = win2_6.index t (0 : Fin 2) * 512 + 1 * p.val; omega
    | ⟨1, _⟩ => show win2_4.index t (1 : Fin 2) * 1 + 1 * 0 = 0; omega
  · show V c main_v14 (((cfg2.win 5).blk t).view.emb (ix2 (0 : Fin 1) q)) = V c main_v14 _
    refine congrArg (V c main_v14) (funext fun a => Fin.ext ?_)
    match a with
    | ⟨0, _⟩ => show win2_5.index t (0 : Fin 2) * 1 + 1 * 0 = 0; omega
    | ⟨1, _⟩ => show win2_5.index t (1 : Fin 2) * 4096 + 1 * q.val = win2_6.index t (1 : Fin 2) * 4096 + 1 * q.val; omega

/-- An index of the result is in point `t`'s band iff each coordinate is in the band's range. -/
theorem mem_band (t : Fin cfg2.N) (i : S4096x4096.Idx) :
    i ∈ ((cfg2.win 6).blk t).view.set ↔ ∀ a : Fin 2, win2_6.index t a * S512x4096.size a ≤ (i a).val ∧ (i a).val < win2_6.index t a * S512x4096.size a + S512x4096.size a := by
  show i ∈ ((View.whole main_v15).slice (win2_6.rect t)).set ↔ _
  rw [View.set_slice_whole, Rect.mem_set_unit]
  exact Iff.rfl

/-- The bands cover the result: row `r` is in band `r / 512`. -/
theorem cover (i : S4096x4096.Idx) : ∃ t : Fin cfg2.N, (cfg2.win 6).flush t = true ∧ i ∈ ((cfg2.win 6).blk t).view.set := by
  have hi0 : (i 0).val < 4096 := (i 0).isLt
  have hi1 : (i 1).val < 4096 := (i 1).isLt
  obtain ⟨t, ht⟩ := band_onto ⟨(i 0).val / 512, by omega⟩
  have ht' : t.val = (i 0).val / 512 := ht
  obtain ⟨-, -, -, -, -, -, -, -, -, -, -, -, e60, e61⟩ := band_facts t
  refine ⟨t, flush2_6 t, ?_⟩
  rw [mem_band]
  intro a
  match a with
  | ⟨0, _⟩ => show win2_6.index t (0 : Fin 2) * 512 ≤ (i 0).val ∧ (i 0).val < win2_6.index t (0 : Fin 2) * 512 + 512; omega
  | ⟨1, _⟩ => show win2_6.index t (1 : Fin 2) * 4096 ≤ (i 1).val ∧ (i 1).val < win2_6.index t (1 : Fin 2) * 4096 + 4096; omega

/-- The result array after the launch. -/
theorem entries (c : Dev nD) (i j : Fin 4096) :
    (dat2 (F := Ideal) V c).arrAt 6 cfg2.N (ix2 i j)
      = pair (fun k => V c main_v8_0 (ix2 i k)) (fun k => V c main_v12 (ix2 k j)) (fun s => V c main_v8_1 (ix2 i s))
          (fun s => V c main_v13 (ix2 s j)) (V c main_v8_2 (ix2 i (0 : Fin 1))) (V c main_v14 (ix2 (0 : Fin 1) j)) :=
  congrFun ((dat2 (F := Ideal) V c).arrAt_eq_of_cover 6 (entriesG V c) (fun t _ => flushed_entries V c t) cover) (ix2 i j)

end Cert.KernelIdeal.PairArrays

end
-- ==== Proof.Boundaries.lean ====
/-
  What the buffers hold where each launch begins, read back through the program to the launch memory.

  Before the first launch the program slices the first prediction table into its feature, confidence and class columns
  and lays the two bias vectors out as single rows; the weight matrices are untouched. Before the second launch it lays
  the biases out again; the second table's slices were made at the start and nothing since wrote them. Before the third
  launch it transposes the second launch's direction and root arrays and lays its class column out as a row; the first
  launch's three results are as that launch left them.
-/
import proofs.«117339_j76819785056585_1_alg».proof.Proof.Gen.KernelIdeal.Frame
import proofs.«117339_j76819785056585_1_alg».proof.Proof.Spec
import Idealize.ShloMosaic.Lib.Pipeline.Value
import Idealize.ShloMosaic.Lib.ValueIdx
import Idealize.ShloMosaic.Lib.ValueLayout
import Idealize.ShloMosaic.Lib.StableHlo.Run

open scoped BigOperators

noncomputable section

namespace Cert.KernelIdeal.Boundaries

open Cert.KernelIdeal Cert.KernelIdeal.Gen Cert.CosinePair Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-! ## Where the first launch begins -/

theorem first_feat (c : Dev nD) (r : Fin 4096) (d : Fin 5) :
    V1 m ρ c main_v0 (ix2 r d) = m ((c : Thread nD τ).loc main_arg0) (ix2 r (featCol d)) := by
  have e : (V1 m ρ c main_v0 : S4096x5.Idx → EReal)
      = extractStridedSlice S4096x5 ![0, 1] (m ((c : Thread nD τ).loc main_arg0)) slices_S4096x23_S4096x5_0_1 := by
    dsimp only [V1, W1, W0, hostOps0]; after_results
  rw [e]
  exact extractStridedSlice_apply ![0, 1] _ slices_S4096x23_S4096x5_0_1 (ix2 r d) (ix2 r (featCol d)) (fun a => match a with
    | ⟨0, _⟩ => by show r.val = 0 + r.val; omega
    | ⟨1, _⟩ => by show 1 + d.val = 1 + d.val; omega)
theorem first_conf (c : Dev nD) (r : Fin 4096) (s : Fin 16) :
    V1 m ρ c main_v4 (ix2 r s) = m ((c : Thread nD τ).loc main_arg0) (ix2 r (confCol s)) := by
  have e : (V1 m ρ c main_v4 : S4096x16.Idx → EReal)
      = extractStridedSlice S4096x16 ![0, 7] (m ((c : Thread nD τ).loc main_arg0)) slices_S4096x23_S4096x16_0_7 := by
    dsimp only [V1, W1, W0, hostOps0]; after_results
  rw [e]
  exact extractStridedSlice_apply ![0, 7] _ slices_S4096x23_S4096x16_0_7 (ix2 r s) (ix2 r (confCol s)) (fun a => match a with
    | ⟨0, _⟩ => by show r.val = 0 + r.val; omega
    | ⟨1, _⟩ => by show 7 + s.val = 7 + s.val; omega)
theorem first_cls (c : Dev nD) (r : Fin 4096) :
    V1 m ρ c main_v2 (ix2 r (0 : Fin 1)) = m ((c : Thread nD τ).loc main_arg0) (ix2 r clsCol) := by
  have e : (V1 m ρ c main_v2 : S4096x1.Idx → EReal)
      = extractStridedSlice S4096x1 ![0, 6] (m ((c : Thread nD τ).loc main_arg0)) slices_S4096x23_S4096x1_0_6 := by
    dsimp only [V1, W1, W0, hostOps0]; after_results
  rw [e]
  exact extractStridedSlice_apply ![0, 6] _ slices_S4096x23_S4096x1_0_6 (ix2 r (0 : Fin 1)) (ix2 r clsCol) (fun a => match a with
    | ⟨0, _⟩ => by show r.val = 0 + r.val; omega
    | ⟨1, _⟩ => by show 6 = 6 + (0 : Fin 1).val; rfl)
theorem first_b1 (c : Dev nD) (h : Fin 64) :
    V1 m ρ c main_v6 (ix2 (0 : Fin 1) h) = m ((c : Thread nD τ).loc main_arg3) (ix1 h) := by
  have e : (V1 m ρ c main_v6 : S1x64.Idx → EReal)
      = shapeCast S1x64 (m ((c : Thread nD τ).loc main_arg3)) shapeCasts_S64_S1x64 := by
    dsimp only [V1, W1, W0, hostOps0]; after_results; rfl
  rw [e]
  exact shapeCast_apply _ shapeCasts_S64_S1x64 (ix2 (0 : Fin 1) h) (ix1 h)
    (by rewrite [Shape.rowMajor_val_two, Shape.rowMajor_val_one]; show h.val = 0 * 64 + h.val; omega)
theorem first_b2 (c : Dev nD) (k : Fin 32) :
    V1 m ρ c main_v7 (ix2 (0 : Fin 1) k) = m ((c : Thread nD τ).loc main_arg5) (ix1 k) := by
  have e : (V1 m ρ c main_v7 : S1x32.Idx → EReal)
      = shapeCast S1x32 (m ((c : Thread nD τ).loc main_arg5)) shapeCasts_S32_S1x32 := by
    dsimp only [V1, W1, W0, hostOps0]; after_results; rfl
  rw [e]
  exact shapeCast_apply _ shapeCasts_S32_S1x32 (ix2 (0 : Fin 1) k) (ix1 k)
    (by rewrite [Shape.rowMajor_val_two, Shape.rowMajor_val_one]; show k.val = 0 * 32 + k.val; omega)
theorem first_w1 (c : Dev nD) : V1 m ρ c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem first_w2 (c : Dev nD) : V1 m ρ c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Where the second launch begins -/

/-- A buffer the first launch does not own and the second host stretch does not write holds at the second launch what
    it held at the first. -/
private theorem V3_main_v1 (c : Dev nD) : V3 m ρ c main_v1 = V1 m ρ c main_v1 :=
  calc W3 m ρ c (Proc.devRef .tc main_v1)
    _ = W2 m ρ c (Proc.devRef .tc main_v1) := StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v1) := W2_of_ne m ρ c main_v1 (by decide)
private theorem V3_main_v5 (c : Dev nD) : V3 m ρ c main_v5 = V1 m ρ c main_v5 :=
  calc W3 m ρ c (Proc.devRef .tc main_v5)
    _ = W2 m ρ c (Proc.devRef .tc main_v5) := StableHlo.after_of_forall_not_mem (b := Proc.devRef .tc main_v5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v5) := W2_of_ne m ρ c main_v5 (by decide)
private theorem V3_main_v3 (c : Dev nD) : V3 m ρ c main_v3 = V1 m ρ c main_v3 :=
  calc W3 m ρ c (Proc.devRef .tc main_v3)
    _ = W2 m ρ c (Proc.devRef .tc main_v3) := StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v3) := W2_of_ne m ρ c main_v3 (by decide)

/-- The two bias vectors are as launched where the first launch ends: no host operation writes them and the first
    launch does not own them. -/
private theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg3) := rfl
private theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg5) := rfl

theorem second_feat (c : Dev nD) (r : Fin 4096) (d : Fin 5) :
    V3 m ρ c main_v1 (ix2 r d) = m ((c : Thread nD τ).loc main_arg1) (ix2 r (featCol d)) := by
  have e : (V1 m ρ c main_v1 : S4096x5.Idx → EReal)
      = extractStridedSlice S4096x5 ![0, 1] (m ((c : Thread nD τ).loc main_arg1)) slices_S4096x23_S4096x5_0_1 := by
    dsimp only [V1, W1, W0, hostOps0]; after_results
  rw [V3_main_v1 m ρ c]
  rw [e]
  exact extractStridedSlice_apply ![0, 1] _ slices_S4096x23_S4096x5_0_1 (ix2 r d) (ix2 r (featCol d)) (fun a => match a with
    | ⟨0, _⟩ => by show r.val = 0 + r.val; omega
    | ⟨1, _⟩ => by show 1 + d.val = 1 + d.val; omega)
theorem second_conf (c : Dev nD) (r : Fin 4096) (s : Fin 16) :
    V3 m ρ c main_v5 (ix2 r s) = m ((c : Thread nD τ).loc main_arg1) (ix2 r (confCol s)) := by
  have e : (V1 m ρ c main_v5 : S4096x16.Idx → EReal)
      = extractStridedSlice S4096x16 ![0, 7] (m ((c : Thread nD τ).loc main_arg1)) slices_S4096x23_S4096x16_0_7 := by
    dsimp only [V1, W1, W0, hostOps0]; after_results
  rw [V3_main_v5 m ρ c]
  rw [e]
  exact extractStridedSlice_apply ![0, 7] _ slices_S4096x23_S4096x16_0_7 (ix2 r s) (ix2 r (confCol s)) (fun a => match a with
    | ⟨0, _⟩ => by show r.val = 0 + r.val; omega
    | ⟨1, _⟩ => by show 7 + s.val = 7 + s.val; omega)
theorem second_cls (c : Dev nD) (r : Fin 4096) :
    V3 m ρ c main_v3 (ix2 r (0 : Fin 1)) = m ((c : Thread nD τ).loc main_arg1) (ix2 r clsCol) := by
  have e : (V1 m ρ c main_v3 : S4096x1.Idx → EReal)
      = extractStridedSlice S4096x1 ![0, 6] (m ((c : Thread nD τ).loc main_arg1)) slices_S4096x23_S4096x1_0_6 := by
    dsimp only [V1, W1, W0, hostOps0]; after_results
  rw [V3_main_v3 m ρ c]
  rw [e]
  exact extractStridedSlice_apply ![0, 6] _ slices_S4096x23_S4096x1_0_6 (ix2 r (0 : Fin 1)) (ix2 r clsCol) (fun a => match a with
    | ⟨0, _⟩ => by show r.val = 0 + r.val; omega
    | ⟨1, _⟩ => by show 6 = 6 + (0 : Fin 1).val; rfl)
theorem second_b1 (c : Dev nD) (h : Fin 64) :
    V3 m ρ c main_v9 (ix2 (0 : Fin 1) h) = m ((c : Thread nD τ).loc main_arg3) (ix1 h) := by
  have e : (V3 m ρ c main_v9 : S1x64.Idx → EReal)
      = shapeCast S1x64 (W2 m ρ c (Proc.devRef .tc main_arg3)) shapeCasts_S64_S1x64 := by
    dsimp only [V3, W3, hostOps1]; after_results; rfl
  rw [e]
  refine (shapeCast_apply _ shapeCasts_S64_S1x64 (ix2 (0 : Fin 1) h) (ix1 h)
    (by rewrite [Shape.rowMajor_val_two, Shape.rowMajor_val_one]; show h.val = 0 * 64 + h.val; omega)).trans ?_
  exact congrFun (W2_main_arg3 m ρ c) (ix1 h)
theorem second_b2 (c : Dev nD) (k : Fin 32) :
    V3 m ρ c main_v10 (ix2 (0 : Fin 1) k) = m ((c : Thread nD τ).loc main_arg5) (ix1 k) := by
  have e : (V3 m ρ c main_v10 : S1x32.Idx → EReal)
      = shapeCast S1x32 (W2 m ρ c (Proc.devRef .tc main_arg5)) shapeCasts_S32_S1x32 := by
    dsimp only [V3, W3, hostOps1]; after_results; rfl
  rw [e]
  refine (shapeCast_apply _ shapeCasts_S32_S1x32 (ix2 (0 : Fin 1) k) (ix1 k)
    (by rewrite [Shape.rowMajor_val_two, Shape.rowMajor_val_one]; show k.val = 0 * 32 + k.val; omega)).trans ?_
  exact congrFun (W2_main_arg5 m ρ c) (ix1 k)
theorem second_w1 (c : Dev nD) : V3 m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg2) := rfl
theorem second_w2 (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg4) := rfl

/-! ## Where the third launch begins -/

theorem third_dirs (c : Dev nD) : V5 m ρ c main_v8_0 = (dat0 (F := Ideal) (V1 m ρ) c).arrAt 7 cfg0.N :=
  calc W5 m ρ c (Proc.devRef .tc main_v8_0)
    _ = W4 m ρ c (Proc.devRef .tc main_v8_0) := StableHlo.after_of_forall_not_mem (b := Proc.devRef .tc main_v8_0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W3 m ρ c (Proc.devRef .tc main_v8_0) := W4_of_ne m ρ c main_v8_0 (by decide)
    _ = W2 m ρ c (Proc.devRef .tc main_v8_0) := StableHlo.after_of_forall_not_mem (b := Proc.devRef .tc main_v8_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 7 cfg0.N := W2_arr m ρ c 7
theorem third_roots (c : Dev nD) : V5 m ρ c main_v8_1 = (dat0 (F := Ideal) (V1 m ρ) c).arrAt 8 cfg0.N :=
  calc W5 m ρ c (Proc.devRef .tc main_v8_1)
    _ = W4 m ρ c (Proc.devRef .tc main_v8_1) := StableHlo.after_of_forall_not_mem (b := Proc.devRef .tc main_v8_1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W3 m ρ c (Proc.devRef .tc main_v8_1) := W4_of_ne m ρ c main_v8_1 (by decide)
    _ = W2 m ρ c (Proc.devRef .tc main_v8_1) := StableHlo.after_of_forall_not_mem (b := Proc.devRef .tc main_v8_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 8 cfg0.N := W2_arr m ρ c 8
theorem third_labels (c : Dev nD) : V5 m ρ c main_v8_2 = (dat0 (F := Ideal) (V1 m ρ) c).arrAt 9 cfg0.N :=
  calc W5 m ρ c (Proc.devRef .tc main_v8_2)
    _ = W4 m ρ c (Proc.devRef .tc main_v8_2) := StableHlo.after_of_forall_not_mem (b := Proc.devRef .tc main_v8_2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W3 m ρ c (Proc.devRef .tc main_v8_2) := W4_of_ne m ρ c main_v8_2 (by decide)
    _ = W2 m ρ c (Proc.devRef .tc main_v8_2) := StableHlo.after_of_forall_not_mem (b := Proc.devRef .tc main_v8_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 9 cfg0.N := W2_arr m ρ c 9
theorem third_dirsT (c : Dev nD) (k : Fin 32) (j : Fin 4096) :
    V5 m ρ c main_v12 (ix2 k j) = (dat1 (F := Ideal) (V3 m ρ) c).arrAt 7 cfg1.N (ix2 j k) := by
  have e : (V5 m ρ c main_v12 : S32x4096.Idx → EReal)
      = transpose S32x4096 [1, 0] (W4 m ρ c (Proc.devRef .tc main_v11_0)) transposes_S4096x32_S32x4096_1_0 := by
    dsimp only [V5, W5, hostOps2]; after_results
  rw [e]
  refine (transpose_apply [1, 0] _ transposes_S4096x32_S32x4096_1_0 (ix2 k j) (ix2 j k) (fun b => match b with
    | ⟨0, _⟩ => rfl
    | ⟨1, _⟩ => rfl)).trans ?_
  exact congrFun (W4_arr m ρ c 7) (ix2 j k)
theorem third_rootsT (c : Dev nD) (s : Fin 16) (j : Fin 4096) :
    V5 m ρ c main_v13 (ix2 s j) = (dat1 (F := Ideal) (V3 m ρ) c).arrAt 8 cfg1.N (ix2 j s) := by
  have e : (V5 m ρ c main_v13 : S16x4096.Idx → EReal)
      = transpose S16x4096 [1, 0] (W4 m ρ c (Proc.devRef .tc main_v11_1)) transposes_S4096x16_S16x4096_1_0 := by
    dsimp only [V5, W5, hostOps2]; after_results
  rw [e]
  refine (transpose_apply [1, 0] _ transposes_S4096x16_S16x4096_1_0 (ix2 s j) (ix2 j s) (fun b => match b with
    | ⟨0, _⟩ => rfl
    | ⟨1, _⟩ => rfl)).trans ?_
  exact congrFun (W4_arr m ρ c 8) (ix2 j s)
theorem third_labelsRow (c : Dev nD) (j : Fin 4096) :
    V5 m ρ c main_v14 (ix2 (0 : Fin 1) j) = (dat1 (F := Ideal) (V3 m ρ) c).arrAt 9 cfg1.N (ix2 j (0 : Fin 1)) := by
  have e : (V5 m ρ c main_v14 : S1x4096.Idx → EReal)
      = shapeCast S1x4096 (W4 m ρ c (Proc.devRef .tc main_v11_2)) shapeCasts_S4096x1_S1x4096 := by
    dsimp only [V5, W5, hostOps2]; after_results; rfl
  rw [e]
  refine (shapeCast_apply _ shapeCasts_S4096x1_S1x4096 (ix2 (0 : Fin 1) j) (ix2 j (0 : Fin 1))
    (by rewrite [Shape.rowMajor_val_two, Shape.rowMajor_val_two]; show j.val * 1 + 0 = 0 * 4096 + j.val; omega)).trans ?_
  exact congrFun (W4_arr m ρ c 9) (ix2 j (0 : Fin 1))

end Cert.KernelIdeal.Boundaries

end
-- ==== Proof.KernelValue.lean ====
/-
  The idealized kernel program's result, entry by entry. After the third launch the result buffer holds that
  launch's array; its entry `(i, j)` pairs row `i` of the first launch's three arrays with row `j` of the second
  launch's (their transposes read at the swapped index), and each of those rows is the body's value of the matching
  row of a prediction table read through the slices. Together: `Cert.CosinePair.result` of the launch memory.
-/
import proofs.«117339_j76819785056585_1_alg».proof.Proof.Gen.KernelIdeal.Frame
import proofs.«117339_j76819785056585_1_alg».proof.Proof.EmbedArrays0
import proofs.«117339_j76819785056585_1_alg».proof.Proof.EmbedArrays1
import proofs.«117339_j76819785056585_1_alg».proof.Proof.PairArrays
import proofs.«117339_j76819785056585_1_alg».proof.Proof.Boundaries

open scoped BigOperators

noncomputable section

namespace Cert.KernelIdeal.KernelValue

open Cert.KernelIdeal Cert.KernelIdeal.Gen Cert.CosinePair Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- Row `i` of the first launch's direction array, as the third launch finds it, is the direction of row `i` of the
    first prediction table. -/
theorem left_dir (c : Dev nD) (i : Fin 4096) (k : Fin 32) :
    V5 m ρ c main_v8_0 (ix2 i k)
      = dir (fun d => m ((c : Thread nD τ).loc main_arg0) (ix2 i (featCol d))) (fun h d => m ((c : Thread nD τ).loc main_arg2) (ix2 h d))
          (fun h => m ((c : Thread nD τ).loc main_arg3) (ix1 h)) (fun k h => m ((c : Thread nD τ).loc main_arg4) (ix2 k h))
          (fun k => m ((c : Thread nD τ).loc main_arg5) (ix1 k)) k := by
  rw [Boundaries.third_dirs, EmbedArrays0.dirs]
  exact EmbedArrays0.dir_congr (fun d => Boundaries.first_feat m ρ c i d) (fun h d => by rw [Boundaries.first_w1])
    (fun h => Boundaries.first_b1 m ρ c h) (fun k h => by rw [Boundaries.first_w2]) (fun k => Boundaries.first_b2 m ρ c k) rfl

/-- Column `j` of the transposed second direction array is the direction of row `j` of the second prediction table. -/
theorem right_dir (c : Dev nD) (j : Fin 4096) (k : Fin 32) :
    V5 m ρ c main_v12 (ix2 k j)
      = dir (fun d => m ((c : Thread nD τ).loc main_arg1) (ix2 j (featCol d))) (fun h d => m ((c : Thread nD τ).loc main_arg2) (ix2 h d))
          (fun h => m ((c : Thread nD τ).loc main_arg3) (ix1 h)) (fun k h => m ((c : Thread nD τ).loc main_arg4) (ix2 k h))
          (fun k => m ((c : Thread nD τ).loc main_arg5) (ix1 k)) k := by
  rw [Boundaries.third_dirsT, EmbedArrays1.dirs]
  exact EmbedArrays1.dir_congr (fun d => Boundaries.second_feat m ρ c j d) (fun h d => by rw [Boundaries.second_w1])
    (fun h => Boundaries.second_b1 m ρ c h) (fun k h => by rw [Boundaries.second_w2]) (fun k => Boundaries.second_b2 m ρ c k) rfl

/-- The last boundary's contents of the result buffer at `(i, j)`. -/
theorem result_entry (c : Dev nD) (i j : Fin 4096) :
    W6 (F := Ideal) m ρ c (Proc.devRef .tc main_v15) (ix2 i j)
      = result (fun r col => m ((c : Thread nD τ).loc main_arg0) (ix2 r col)) (fun r col => m ((c : Thread nD τ).loc main_arg1) (ix2 r col))
          (fun h d => m ((c : Thread nD τ).loc main_arg2) (ix2 h d)) (fun h => m ((c : Thread nD τ).loc main_arg3) (ix1 h))
          (fun k h => m ((c : Thread nD τ).loc main_arg4) (ix2 k h)) (fun k => m ((c : Thread nD τ).loc main_arg5) (ix1 k)) i j := by
  have h15 : W6 (F := Ideal) m ρ c (Proc.devRef .tc main_v15) = (dat2 (F := Ideal) (V5 m ρ) c).arrAt 6 cfg2.N := W6_arr m ρ c 6
  rw [h15, PairArrays.entries]
  unfold result
  refine PairArrays.pair_congr (fun k => left_dir m ρ c i k) (fun k => right_dir m ρ c j k) (fun s => ?_) (fun s => ?_) ?_ ?_
  · rw [Boundaries.third_roots, EmbedArrays0.roots, Boundaries.first_conf]
  · rw [Boundaries.third_rootsT, EmbedArrays1.roots, Boundaries.second_conf]
  · rw [Boundaries.third_labels, EmbedArrays0.labels, Boundaries.first_cls]
  · rw [Boundaries.third_labelsRow, EmbedArrays1.labels, Boundaries.second_cls]

end Cert.KernelIdeal.KernelValue

end
-- ==== Proof.RefValue.lean ====
/-
  The reference's result, read entry by entry. Its program slices the two prediction tables, applies the two-layer
  map to each table's features (a product with the transposed first weight matrix, the bias, the rectifier, a
  product with the transposed second weight matrix, the bias), divides each row by its clamped Euclidean length (the
  sum of squares started from the zero word, which adds nothing), multiplies the first table's directions with the
  transpose of the second's, compares the class columns, multiplies the confidence roots with their transpose, and
  takes the product of the three. At `(i, j)` that is `Cert.CosinePair.result`.
-/
import proofs.«117339_j76819785056585_1_alg».proof.Proof.Gen.ReferenceIdeal.Read
import proofs.«117339_j76819785056585_1_alg».proof.Proof.Spec
import Idealize.ShloMosaic.Lib.ValueIdx
import Idealize.ShloMosaic.PureOps.Ideal.Laws

open scoped BigOperators

noncomputable section

namespace Cert.ReferenceIdeal.RefValue

open Cert.ReferenceIdeal Cert.ReferenceIdeal.Read Cert.CosinePair Idealize.ShloMosaic Idealize.ShloMosaic.ValueIdx

/-- The first table's rectified affine layer at row `r`, unit `h`. -/
private theorem hidden_entry (x0 : Vec Ideal S4096x23 .f32) (x2 : Vec Ideal S64x5 .f32) (x3 : Vec Ideal S64 .f32)
    (r : Fin 4096) (h : Fin 64) :
    val_main_v13 (F := Ideal) x0 x2 x3 (ix2 r h)
      = CosinePair.hidden (fun d => x0 (ix2 r (featCol d))) (fun h d => x2 (ix2 h d)) (fun h => x3 (ix1 h)) h := by
  rw [val_main_v13_apply, val_main_v12_apply, val_main_v9_apply, val_main_v11_apply, val_main_v10_apply,
    val_main_call0_v0_apply, val_main_call0_cst_apply]
  unfold CosinePair.hidden
  have e3 : idx_main_v10 (idx_main_v11 (ix2 r h)) = ix1 h :=
    funext fun a => Fin.ext (by match a with | ⟨0, _⟩ => rfl)
  rw [e3]
  have es : ∀ d : Fin 5, val_main_v0 (F := Ideal) x0 (lidx_main_v9 (ix2 r h) d) * val_main_v8 (F := Ideal) x2 (ridx_main_v9 (ix2 r h) d)
      = x0 (ix2 r (featCol d)) * x2 (ix2 h d) := by
    intro d
    rw [val_main_v0_apply, val_main_v8_apply]
    have e0 : idx_main_v0 (lidx_main_v9 (ix2 r h) d) = ix2 r (featCol d) :=
      funext fun a => Fin.ext (by match a with | ⟨0, _⟩ => rfl | ⟨1, _⟩ => rfl)
    have e2 : idx_main_v8 (ridx_main_v9 (ix2 r h) d) = ix2 h d :=
      funext fun a => Fin.ext (by match a with | ⟨0, _⟩ => rfl | ⟨1, _⟩ => rfl)
    rw [e0, e2]
  rw [Finset.sum_congr rfl fun d _ => es d]
  rfl

/-- The first table's second affine layer at row `r`, feature `k`. -/
private theorem feat_entry (x0 : Vec Ideal S4096x23 .f32) (x2 : Vec Ideal S64x5 .f32) (x3 : Vec Ideal S64 .f32)
    (x4 : Vec Ideal S32x64 .f32) (x5 : Vec Ideal S32 .f32) (r : Fin 4096) (k : Fin 32) :
    val_main_v18 (F := Ideal) x0 x2 x3 x4 x5 (ix2 r k)
      = CosinePair.feat (fun d => x0 (ix2 r (featCol d))) (fun h d => x2 (ix2 h d)) (fun h => x3 (ix1 h)) (fun k h => x4 (ix2 k h)) (fun k => x5 (ix1 k)) k := by
  rw [val_main_v18_apply, val_main_v15_apply, val_main_v17_apply, val_main_v16_apply]
  unfold CosinePair.feat
  have e5 : idx_main_v16 (idx_main_v17 (ix2 r k)) = ix1 k :=
    funext fun a => Fin.ext (by match a with | ⟨0, _⟩ => rfl)
  rw [e5]
  have es : ∀ h : Fin 64, val_main_v13 (F := Ideal) x0 x2 x3 (lidx_main_v15 (ix2 r k) h) * val_main_v14 (F := Ideal) x4 (ridx_main_v15 (ix2 r k) h)
      = CosinePair.hidden (fun d => x0 (ix2 r (featCol d))) (fun h d => x2 (ix2 h d)) (fun h => x3 (ix1 h)) h * x4 (ix2 k h) := by
    intro h
    have el : lidx_main_v15 (ix2 r k) h = ix2 r h :=
      funext fun a => Fin.ext (by match a with | ⟨0, _⟩ => rfl | ⟨1, _⟩ => rfl)
    rw [el, hidden_entry, val_main_v14_apply]
    have e4 : idx_main_v14 (ridx_main_v15 (ix2 r k) h) = ix2 k h :=
      funext fun a => Fin.ext (by match a with | ⟨0, _⟩ => rfl | ⟨1, _⟩ => rfl)
    rw [e4]
  rw [Finset.sum_congr rfl fun h _ => es h]
  rfl

/-- The first table's clamped Euclidean length of row `r`: the sum of squares starts from the zero word, which
    adds nothing. -/
private theorem len_entry (x0 : Vec Ideal S4096x23 .f32) (x2 : Vec Ideal S64x5 .f32) (x3 : Vec Ideal S64 .f32)
    (x4 : Vec Ideal S32x64 .f32) (x5 : Vec Ideal S32 .f32) (r : Fin 4096) (z : Fin 1) :
    val_main_v32 (F := Ideal) x0 x2 x3 x4 x5 (ix2 r z)
      = CosinePair.len (fun d => x0 (ix2 r (featCol d))) (fun h d => x2 (ix2 h d)) (fun h => x3 (ix1 h)) (fun k h => x4 (ix2 k h)) (fun k => x5 (ix1 k)) := by
  rw [val_main_v32_apply, val_main_v30_apply, val_main_call2_v2_apply, val_main_call2_v1_apply,
    val_main_call2_cst_apply, val_main_v31_apply, val_main_cst_apply]
  unfold CosinePair.len
  have es : ∀ k : Fin 32, val_main_call2_v0 (F := Ideal) x0 x2 x3 x4 x5 (idx_main_call2_v1 (idx_main_call2_v2 (ix2 r z)) k)
      = CosinePair.feat (fun d => x0 (ix2 r (featCol d))) (fun h d => x2 (ix2 h d)) (fun h => x3 (ix1 h)) (fun k h => x4 (ix2 k h)) (fun k => x5 (ix1 k)) k * CosinePair.feat (fun d => x0 (ix2 r (featCol d))) (fun h d => x2 (ix2 h d)) (fun h => x3 (ix1 h)) (fun k h => x4 (ix2 k h)) (fun k => x5 (ix1 k)) k := by
    intro k
    have e : idx_main_call2_v1 (idx_main_call2_v2 (ix2 r z)) k = ix2 r k :=
      funext fun a => Fin.ext (by match a with | ⟨0, _⟩ => rfl | ⟨1, _⟩ => rfl)
    rw [e, val_main_call2_v0_apply, feat_entry]
    rfl
  rw [Finset.sum_congr rfl fun k _ => es k]
  simp only [Ideal.ofBits_def, Ideal.ofBits_zero_f32, zero_add, Ideal.hostUnary_sqrt_def, Ideal.maximumf_def]

/-- The first table's direction of row `r`, coordinate `k`. -/
private theorem dir_entry (x0 : Vec Ideal S4096x23 .f32) (x2 : Vec Ideal S64x5 .f32) (x3 : Vec Ideal S64 .f32)
    (x4 : Vec Ideal S32x64 .f32) (x5 : Vec Ideal S32 .f32) (r : Fin 4096) (k : Fin 32) :
    val_main_v34 (F := Ideal) x0 x2 x3 x4 x5 (ix2 r k)
      = CosinePair.dir (fun d => x0 (ix2 r (featCol d))) (fun h d => x2 (ix2 h d)) (fun h => x3 (ix1 h)) (fun k h => x4 (ix2 k h)) (fun k => x5 (ix1 k)) k := by
  rw [val_main_v34_apply, val_main_v33_apply, feat_entry]
  have e : idx_main_v33 (ix2 r k) = ix2 r (⟨0, Nat.one_pos⟩ : Fin 1) :=
    funext fun a => Fin.ext (by match a with | ⟨0, _⟩ => rfl | ⟨1, _⟩ => rfl)
  rw [e, len_entry]
  rfl

/-- The second table's rectified affine layer at row `r`, unit `h`. -/
private theorem hidden_entry' (x1 : Vec Ideal S4096x23 .f32) (x2 : Vec Ideal S64x5 .f32) (x3 : Vec Ideal S64 .f32)
    (r : Fin 4096) (h : Fin 64) :
    val_main_v24 (F := Ideal) x1 x2 x3 (ix2 r h)
      = CosinePair.hidden (fun d => x1 (ix2 r (featCol d))) (fun h d => x2 (ix2 h d)) (fun h => x3 (ix1 h)) h := by
  rw [val_main_v24_apply, val_main_v23_apply, val_main_v20_apply, val_main_v22_apply, val_main_v21_apply,
    val_main_call1_v0_apply, val_main_call1_cst_apply]
  unfold CosinePair.hidden
  have e3 : idx_main_v21 (idx_main_v22 (ix2 r h)) = ix1 h :=
    funext fun a => Fin.ext (by match a with | ⟨0, _⟩ => rfl)
  rw [e3]
  have es : ∀ d : Fin 5, val_main_v1 (F := Ideal) x1 (lidx_main_v20 (ix2 r h) d) * val_main_v19 (F := Ideal) x2 (ridx_main_v20 (ix2 r h) d)
      = x1 (ix2 r (featCol d)) * x2 (ix2 h d) := by
    intro d
    rw [val_main_v1_apply, val_main_v19_apply]
    have e0 : idx_main_v1 (lidx_main_v20 (ix2 r h) d) = ix2 r (featCol d) :=
      funext fun a => Fin.ext (by match a with | ⟨0, _⟩ => rfl | ⟨1, _⟩ => rfl)
    have e2 : idx_main_v19 (ridx_main_v20 (ix2 r h) d) = ix2 h d :=
      funext fun a => Fin.ext (by match a with | ⟨0, _⟩ => rfl | ⟨1, _⟩ => rfl)
    rw [e0, e2]
  rw [Finset.sum_congr rfl fun d _ => es d]
  rfl

/-- The second table's second affine layer at row `r`, feature `k`. -/
private theorem feat_entry' (x1 : Vec Ideal S4096x23 .f32) (x2 : Vec Ideal S64x5 .f32) (x3 : Vec Ideal S64 .f32)
    (x4 : Vec Ideal S32x64 .f32) (x5 : Vec Ideal S32 .f32) (r : Fin 4096) (k : Fin 32) :
    val_main_v29 (F := Ideal) x1 x2 x3 x4 x5 (ix2 r k)
      = CosinePair.feat (fun d => x1 (ix2 r (featCol d))) (fun h d => x2 (ix2 h d)) (fun h => x3 (ix1 h)) (fun k h => x4 (ix2 k h)) (fun k => x5 (ix1 k)) k := by
  rw [val_main_v29_apply, val_main_v26_apply, val_main_v28_apply, val_main_v27_apply]
  unfold CosinePair.feat
  have e5 : idx_main_v27 (idx_main_v28 (ix2 r k)) = ix1 k :=
    funext fun a => Fin.ext (by match a with | ⟨0, _⟩ => rfl)
  rw [e5]
  have es : ∀ h : Fin 64, val_main_v24 (F := Ideal) x1 x2 x3 (lidx_main_v26 (ix2 r k) h) * val_main_v25 (F := Ideal) x4 (ridx_main_v26 (ix2 r k) h)
      = CosinePair.hidden (fun d => x1 (ix2 r (featCol d))) (fun h d => x2 (ix2 h d)) (fun h => x3 (ix1 h)) h * x4 (ix2 k h) := by
    intro h
    have el : lidx_main_v26 (ix2 r k) h = ix2 r h :=
      funext fun a => Fin.ext (by match a with | ⟨0, _⟩ => rfl | ⟨1, _⟩ => rfl)
    rw [el, hidden_entry', val_main_v25_apply]
    have e4 : idx_main_v25 (ridx_main_v26 (ix2 r k) h) = ix2 k h :=
      funext fun a => Fin.ext (by match a with | ⟨0, _⟩ => rfl | ⟨1, _⟩ => rfl)
    rw [e4]
  rw [Finset.sum_congr rfl fun h _ => es h]
  rfl

/-- The second table's clamped Euclidean length of row `r`: the sum of squares starts from the zero word, which
    adds nothing. -/
private theorem len_entry' (x1 : Vec Ideal S4096x23 .f32) (x2 : Vec Ideal S64x5 .f32) (x3 : Vec Ideal S64 .f32)
    (x4 : Vec Ideal S32x64 .f32) (x5 : Vec Ideal S32 .f32) (r : Fin 4096) (z : Fin 1) :
    val_main_v37 (F := Ideal) x1 x2 x3 x4 x5 (ix2 r z)
      = CosinePair.len (fun d => x1 (ix2 r (featCol d))) (fun h d => x2 (ix2 h d)) (fun h => x3 (ix1 h)) (fun k h => x4 (ix2 k h)) (fun k => x5 (ix1 k)) := by
  rw [val_main_v37_apply, val_main_v35_apply, val_main_call3_v2_apply, val_main_call3_v1_apply,
    val_main_call3_cst_apply, val_main_v36_apply, val_main_cst_0_apply]
  unfold CosinePair.len
  have es : ∀ k : Fin 32, val_main_call3_v0 (F := Ideal) x1 x2 x3 x4 x5 (idx_main_call3_v1 (idx_main_call3_v2 (ix2 r z)) k)
      = CosinePair.feat (fun d => x1 (ix2 r (featCol d))) (fun h d => x2 (ix2 h d)) (fun h => x3 (ix1 h)) (fun k h => x4 (ix2 k h)) (fun k => x5 (ix1 k)) k * CosinePair.feat (fun d => x1 (ix2 r (featCol d))) (fun h d => x2 (ix2 h d)) (fun h => x3 (ix1 h)) (fun k h => x4 (ix2 k h)) (fun k => x5 (ix1 k)) k := by
    intro k
    have e : idx_main_call3_v1 (idx_main_call3_v2 (ix2 r z)) k = ix2 r k :=
      funext fun a => Fin.ext (by match a with | ⟨0, _⟩ => rfl | ⟨1, _⟩ => rfl)
    rw [e, val_main_call3_v0_apply, feat_entry']
    rfl
  rw [Finset.sum_congr rfl fun k _ => es k]
  simp only [Ideal.ofBits_def, Ideal.ofBits_zero_f32, zero_add, Ideal.hostUnary_sqrt_def, Ideal.maximumf_def]

/-- The second table's direction of row `r`, coordinate `k`. -/
private theorem dir_entry' (x1 : Vec Ideal S4096x23 .f32) (x2 : Vec Ideal S64x5 .f32) (x3 : Vec Ideal S64 .f32)
    (x4 : Vec Ideal S32x64 .f32) (x5 : Vec Ideal S32 .f32) (r : Fin 4096) (k : Fin 32) :
    val_main_v39 (F := Ideal) x1 x2 x3 x4 x5 (ix2 r k)
      = CosinePair.dir (fun d => x1 (ix2 r (featCol d))) (fun h d => x2 (ix2 h d)) (fun h => x3 (ix1 h)) (fun k h => x4 (ix2 k h)) (fun k => x5 (ix1 k)) k := by
  rw [val_main_v39_apply, val_main_v38_apply, feat_entry']
  have e : idx_main_v38 (ix2 r k) = ix2 r (⟨0, Nat.one_pos⟩ : Fin 1) :=
    funext fun a => Fin.ext (by match a with | ⟨0, _⟩ => rfl | ⟨1, _⟩ => rfl)
  rw [e, len_entry']
  rfl

/-- The product of the first table's directions with the transpose of the second's, at `(i, j)`. -/
private theorem dirprod_entry (x0 x1 : Vec Ideal S4096x23 .f32) (x2 : Vec Ideal S64x5 .f32) (x3 : Vec Ideal S64 .f32)
    (x4 : Vec Ideal S32x64 .f32) (x5 : Vec Ideal S32 .f32) (i j : Fin 4096) :
    val_main_v41 (F := Ideal) x0 x1 x2 x3 x4 x5 (ix2 i j)
      = ∑ k : Fin 32, CosinePair.dir (fun d => x0 (ix2 i (featCol d))) (fun h d => x2 (ix2 h d)) (fun h => x3 (ix1 h)) (fun k h => x4 (ix2 k h)) (fun k => x5 (ix1 k)) k * CosinePair.dir (fun d => x1 (ix2 j (featCol d))) (fun h d => x2 (ix2 h d)) (fun h => x3 (ix1 h)) (fun k h => x4 (ix2 k h)) (fun k => x5 (ix1 k)) k := by
  rw [val_main_v41_apply]
  refine Finset.sum_congr rfl fun k _ => ?_
  have el : lidx_main_v41 (ix2 i j) k = ix2 i k :=
    funext fun a => Fin.ext (by match a with | ⟨0, _⟩ => rfl | ⟨1, _⟩ => rfl)
  have er : idx_main_v40 (ridx_main_v41 (ix2 i j) k) = ix2 j k :=
    funext fun a => Fin.ext (by match a with | ⟨0, _⟩ => rfl | ⟨1, _⟩ => rfl)
  rw [el, dir_entry, val_main_v40_apply, er, dir_entry']

/-- The class comparison at `(i, j)`: the two class columns, each sliced, flattened and broadcast, compared. -/
private theorem same_entry (x0 x1 : Vec Ideal S4096x23 .f32) (i j : Fin 4096) :
    val_main_v47 (F := Ideal) x0 x1 (ix2 i j) = CosinePair.same (x0 (ix2 i clsCol)) (x1 (ix2 j clsCol)) := by
  rw [val_main_v47_apply, val_main_v46_apply, val_main_v44_apply, val_main_v42_apply, val_main_v3_apply,
    val_main_v2_apply, val_main_v45_apply, val_main_v43_apply, val_main_v5_apply, val_main_v4_apply]
  have e0 : idx_main_v2 (idx_main_v3 (idx_main_v42 (idx_main_v44 (ix2 i j)))) = ix2 i clsCol :=
    funext fun a => Fin.ext (by
      match a with
      | ⟨0, _⟩ => exact Nat.div_one _
      | ⟨1, _⟩ => rfl)
  have e1 : idx_main_v4 (idx_main_v5 (idx_main_v43 (idx_main_v45 (ix2 i j)))) = ix2 j clsCol :=
    funext fun a => Fin.ext (by
      match a with
      | ⟨0, _⟩ => exact Nat.div_one _
      | ⟨1, _⟩ => rfl)
  rw [e0, e1]
  rfl

/-- The product of the confidence roots with their transpose, at `(i, j)`. -/
private theorem conf_entry (x0 x1 : Vec Ideal S4096x23 .f32) (i j : Fin 4096) :
    val_main_v51 (F := Ideal) x0 x1 (ix2 i j)
      = ∑ c : Fin 16, Ideal.sqrt (x0 (ix2 i (confCol c))) * Ideal.sqrt (x1 (ix2 j (confCol c))) := by
  rw [val_main_v51_apply]
  refine Finset.sum_congr rfl fun c _ => ?_
  rw [val_main_v48_apply, val_main_v6_apply, val_main_v50_apply, val_main_v49_apply, val_main_v7_apply]
  have e0 : idx_main_v6 (lidx_main_v51 (ix2 i j) c) = ix2 i (confCol c) :=
    funext fun a => Fin.ext (by match a with | ⟨0, _⟩ => rfl | ⟨1, _⟩ => rfl)
  have e1 : idx_main_v7 (idx_main_v50 (ridx_main_v51 (ix2 i j) c)) = ix2 j (confCol c) :=
    funext fun a => Fin.ext (by match a with | ⟨0, _⟩ => rfl | ⟨1, _⟩ => rfl)
  rw [e0, e1]
  rfl

/-- The reference's last stage at `(i, j)` is the specification's entry. -/
theorem result_entry (x0 x1 : Vec Ideal S4096x23 .f32) (x2 : Vec Ideal S64x5 .f32) (x3 : Vec Ideal S64 .f32)
    (x4 : Vec Ideal S32x64 .f32) (x5 : Vec Ideal S32 .f32) (i j : Fin 4096) :
    val_main_v53 (F := Ideal) x0 x1 x2 x3 x4 x5 (ix2 i j)
      = result (fun r col => x0 (ix2 r col)) (fun r col => x1 (ix2 r col)) (fun h d => x2 (ix2 h d)) (fun h => x3 (ix1 h))
          (fun k h => x4 (ix2 k h)) (fun k => x5 (ix1 k)) i j := by
  rw [val_main_v53_apply, val_main_v52_apply, same_entry, conf_entry, dirprod_entry]
  rfl

end Cert.ReferenceIdeal.RefValue

end
-- ==== Proof.lean ====
/-
  A pairwise cosine similarity of two prediction tables, weighted by class agreement and confidence: the kernel program
  against its plain reference, over the extended reals.

  Both programs compute, for row `i` of the first table and row `j` of the second, the product of three numbers — 1 or 0
  as the class labels agree, the inner product of the square roots of the two rows' confidences, and the inner product
  of the two rows' directions, a direction being the image of the row's five features under a two-layer rectified
  affine map divided by its Euclidean length (clamped below by a small shared word). The kernel program computes the
  directions, roots and labels of each table in a launch of their own, tiled in bands of 512 rows, transposes the second
  table's on the host, and forms the three-fold product in a third launch over bands of 512 rows of the result; the
  reference does it with whole-array operations. Entry by entry both are `Cert.CosinePair.result` of the six arguments
  (Proof/Spec.lean): no sum is reordered and nothing is distributed or cancelled, so finiteness of the inputs is not used.
  The idealization rewrote nothing, so the kernel program at the ideal values is its own text.
-/
import proofs.«117339_j76819785056585_1_alg».proof.Defs
import proofs.«117339_j76819785056585_1_alg».proof.Proof.Gen.Kernel
import proofs.«117339_j76819785056585_1_alg».proof.Proof.Gen.Kernel.Skeleton
import proofs.«117339_j76819785056585_1_alg».proof.Proof.Gen.Kernel.Launch
import proofs.«117339_j76819785056585_1_alg».proof.Proof.Gen.Kernel.Points
import proofs.«117339_j76819785056585_1_alg».proof.Proof.Gen.Kernel.Frame
import proofs.«117339_j76819785056585_1_alg».proof.Proof.Gen.KernelIdeal
import proofs.«117339_j76819785056585_1_alg».proof.Proof.Gen.KernelIdeal.Skeleton
import proofs.«117339_j76819785056585_1_alg».proof.Proof.Gen.KernelIdeal.Launch
import proofs.«117339_j76819785056585_1_alg».proof.Proof.Gen.KernelIdeal.Points
import proofs.«117339_j76819785056585_1_alg».proof.Proof.Gen.KernelIdeal.Frame
import proofs.«117339_j76819785056585_1_alg».proof.Proof.Gen.ReferenceIdeal
import proofs.«117339_j76819785056585_1_alg».proof.Proof.Gen.Pre_finite_inputs
import proofs.«117339_j76819785056585_1_alg».proof.Proof.Gen.ReferenceIdeal.Run
import proofs.«117339_j76819785056585_1_alg».proof.Proof.Gen.ReferenceIdeal.Read
import proofs.«117339_j76819785056585_1_alg».proof.Proof.KernelRun
import proofs.«117339_j76819785056585_1_alg».proof.Proof.KernelValue
import proofs.«117339_j76819785056585_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the six arguments both programs end with the same 4096 × 4096 array: entry `(i, j)` of
    each is the specification's entry of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 (F := Ideal) m ρ c (Proc.devRef .tc Cert.KernelIdeal.main_v15),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  funext idx
  obtain ⟨i, j, rfl⟩ : ∃ (i j : Fin 4096), idx = ix2 i j := ⟨idx 0, idx 1, eq_ix2 idx⟩
  rw [Cert.ReferenceIdeal.RefValue.result_entry]
  refine Eq.trans ?_ (Cert.KernelIdeal.KernelValue.result_entry m ρ c i j).symm
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
